-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S256x256 : Shape := ⟨2, ![256, 256]⟩
abbrev S256 : Shape := ⟨1, ![256]⟩
abbrev S8x2x65536 : Shape := ⟨3, ![8, 2, 65536]⟩
abbrev S8x4096 : Shape := ⟨2, ![8, 4096]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x4096x256 .f32) (main_arg1 : FVec F S256x256 .f32) (main_arg2 : FVec F S256 .f32) (main_arg3 : FVec F S256 .f32) (main_arg4 : FVec F S256 .f32) (main_arg5 : IVec S8x2x65536 32) (main_arg6 : IVec S8x4096 32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8x4096x256 : Shape := ⟨3, ![8, 4096, 256]⟩
abbrev S256x256 : Shape := ⟨2, ![256, 256]⟩
abbrev S256 : Shape := ⟨1, ![256]⟩
abbrev S8x2x65536 : Shape := ⟨3, ![8, 2, 65536]⟩
abbrev S8x4096 : Shape := ⟨2, ![8, 4096]⟩
abbrev S8x256x256 : Shape := ⟨3, ![8, 256, 256]⟩
abbrev S1x256x256 : Shape := ⟨3, ![1, 256, 256]⟩
abbrev S1x256 : Shape := ⟨2, ![1, 256]⟩
abbrev S8x1x65536 : Shape := ⟨3, ![8, 1, 65536]⟩
abbrev S8x65536 : Shape := ⟨2, ![8, 65536]⟩
abbrev S_ : Shape := ⟨0, ![]⟩
abbrev S8x65536x1 : Shape := ⟨3, ![8, 65536, 1]⟩
abbrev S1 : Shape := ⟨1, ![1]⟩
abbrev S1x1x1 : Shape := ⟨3, ![1, 1, 1]⟩
abbrev S8x65536x256 : Shape := ⟨3, ![8, 65536, 256]⟩
abbrev S8 : Shape := ⟨1, ![8]⟩
abbrev S8x1 : Shape := ⟨2, ![8, 1]⟩
abbrev S524288 : Shape := ⟨1, ![524288]⟩
abbrev S524288x256 : Shape := ⟨2, ![524288, 256]⟩
abbrev S32768x256 : Shape := ⟨2, ![32768, 256]⟩
abbrev S524288x1 : Shape := ⟨2, ![524288, 1]⟩
abbrev S8x256 : Shape := ⟨2, ![8, 256]⟩
abbrev S8x256x1 : Shape := ⟨3, ![8, 256, 1]⟩
abbrev S1x1x256 : Shape := ⟨3, ![1, 1, 256]⟩

abbrev nBuf : Space → Nat
  | .hbm => 99
  | .vmem => 16
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S8x2x65536, .i32⟩
  | .hbm, ⟨6, _⟩ => ⟨S8x4096, .i32⟩
  | .hbm, ⟨7, _⟩ => ⟨S8x4096x256, .f32⟩
  | .hbm, ⟨8, _⟩ => ⟨S8x1x65536, .i32⟩
  | .hbm, ⟨9, _⟩ => ⟨S8x65536, .i32⟩
  | .hbm, ⟨10, _⟩ => ⟨S8x1x65536, .i32⟩
  | .hbm, ⟨11, _⟩ => ⟨S8x65536, .i32⟩
  | .hbm, ⟨12, _⟩ => ⟨S8x4096, .f32⟩
  | .hbm, ⟨13, _⟩ => ⟨S_, .i32⟩
  | .hbm, ⟨14, _⟩ => ⟨S8x65536, .i32⟩
  | .hbm, ⟨15, _⟩ => ⟨S8x65536, .i1⟩
  | .hbm, ⟨16, _⟩ => ⟨S_, .i32⟩
  | .hbm, ⟨17, _⟩ => ⟨S8x65536, .i32⟩
  | .hbm, ⟨18, _⟩ => ⟨S8x65536, .i32⟩
  | .hbm, ⟨19, _⟩ => ⟨S8x65536, .i32⟩
  | .hbm, ⟨20, _⟩ => ⟨S8x65536x1, .i32⟩
  | .hbm, ⟨21, _⟩ => ⟨S1, .i32⟩
  | .hbm, ⟨22, _⟩ => ⟨S_, .i32⟩
  | .hbm, ⟨23, _⟩ => ⟨S8x65536x1, .i32⟩
  | .hbm, ⟨24, _⟩ => ⟨S8x65536x1, .i1⟩
  | .hbm, ⟨25, _⟩ => ⟨S1x1x1, .i32⟩
  | .hbm, ⟨26, _⟩ => ⟨S8x65536x1, .i32⟩
  | .hbm, ⟨27, _⟩ => ⟨S8x65536x1, .i1⟩
  | .hbm, ⟨28, _⟩ => ⟨S8x65536x1, .i1⟩
  | .hbm, ⟨29, _⟩ => ⟨S_, .i1⟩
  | .hbm, ⟨30, _⟩ => ⟨S8x65536, .i1⟩
  | .hbm, ⟨31, _⟩ => ⟨S8x65536, .f32⟩
  | .hbm, ⟨32, _⟩ => ⟨S_, .f32⟩
  | .hbm, ⟨33, _⟩ => ⟨S8x65536, .f32⟩
  | .hbm, ⟨34, _⟩ => ⟨S8x65536, .f32⟩
  | .hbm, ⟨35, _⟩ => ⟨S_, .i32⟩
  | .hbm, ⟨36, _⟩ => ⟨S8x65536, .i32⟩
  | .hbm, ⟨37, _⟩ => ⟨S8x65536, .i1⟩
  | .hbm, ⟨38, _⟩ => ⟨S_, .i32⟩
  | .hbm, ⟨39, _⟩ => ⟨S8x65536, .i32⟩
  | .hbm, ⟨40, _⟩ => ⟨S8x65536, .i32⟩
  | .hbm, ⟨41, _⟩ => ⟨S8x65536, .i32⟩
  | .hbm, ⟨42, _⟩ => ⟨S8x65536x1, .i32⟩
  | .hbm, ⟨43, _⟩ => ⟨S1, .i32⟩
  | .hbm, ⟨44, _⟩ => ⟨S_, .i32⟩
  | .hbm, ⟨45, _⟩ => ⟨S8x65536x1, .i32⟩
  | .hbm, ⟨46, _⟩ => ⟨S8x65536x1, .i1⟩
  | .hbm, ⟨47, _⟩ => ⟨S1x1x1, .i32⟩
  | .hbm, ⟨48, _⟩ => ⟨S8x65536x1, .i32⟩
  | .hbm, ⟨49, _⟩ => ⟨S8x65536x1, .i1⟩
  | .hbm, ⟨50, _⟩ => ⟨S8x65536x1, .i1⟩
  | .hbm, ⟨51, _⟩ => ⟨S_, .i1⟩
  | .hbm, ⟨52, _⟩ => ⟨S8x65536, .i1⟩
  | .hbm, ⟨53, _⟩ => ⟨S8x65536, .f32⟩
  | .hbm, ⟨54, _⟩ => ⟨S_, .f32⟩
  | .hbm, ⟨55, _⟩ => ⟨S8x65536, .f32⟩
  | .hbm, ⟨56, _⟩ => ⟨S8x65536, .f32⟩
  | .hbm, ⟨57, _⟩ => ⟨S8x65536, .f32⟩
  | .hbm, ⟨58, _⟩ => ⟨S8x65536x1, .i32⟩
  | .hbm, ⟨59, _⟩ => ⟨S_, .i32⟩
  | .hbm, ⟨60, _⟩ => ⟨S8x65536x1, .i32⟩
  | .hbm, ⟨61, _⟩ => ⟨S8x65536x1, .i1⟩
  | .hbm, ⟨62, _⟩ => ⟨S_, .i32⟩
  | .hbm, ⟨63, _⟩ => ⟨S8x65536x1, .i32⟩
  | .hbm, ⟨64, _⟩ => ⟨S8x65536x1, .i32⟩
  | .hbm, ⟨65, _⟩ => ⟨S8x65536x1, .i32⟩
  | .hbm, ⟨66, _⟩ => ⟨S1, .i32⟩
  | .hbm, ⟨67, _⟩ => ⟨S_, .i32⟩
  | .hbm, ⟨68, _⟩ => ⟨S8x65536x1, .i32⟩
  | .hbm, ⟨69, _⟩ => ⟨S8x65536x1, .i1⟩
  | .hbm, ⟨70, _⟩ => ⟨S1x1x1, .i32⟩
  | .hbm, ⟨71, _⟩ => ⟨S8x65536x1, .i32⟩
  | .hbm, ⟨72, _⟩ => ⟨S8x65536x1, .i1⟩
  | .hbm, ⟨73, _⟩ => ⟨S8x65536x1, .i1⟩
  | .hbm, ⟨74, _⟩ => ⟨S_, .i1⟩
  | .hbm, ⟨75, _⟩ => ⟨S8x65536, .i1⟩
  | .hbm, ⟨76, _⟩ => ⟨S8x65536x256, .f32⟩
  | .hbm, ⟨77, _⟩ => ⟨S8x65536x256, .i1⟩
  | .hbm, ⟨78, _⟩ => ⟨S_, .f32⟩
  | .hbm, ⟨79, _⟩ => ⟨S8x65536x256, .f32⟩
  | .hbm, ⟨80, _⟩ => ⟨S8x65536x256, .f32⟩
  | .hbm, ⟨81, _⟩ => ⟨S8x65536x1, .f32⟩
  | .hbm, ⟨82, _⟩ => ⟨S8x65536x256, .f32⟩
  | .hbm, ⟨83, _⟩ => ⟨S8x65536x256, .f32⟩
  | .hbm, ⟨84, _⟩ => ⟨S8, .i32⟩
  | .hbm, ⟨85, _⟩ => ⟨S8x1, .i32⟩
  | .hbm, ⟨86, _⟩ => ⟨S_, .i32⟩
  | .hbm, ⟨87, _⟩ => ⟨S8x1, .i32⟩
  | .hbm, ⟨88, _⟩ => ⟨S8x1, .i32⟩
  | .hbm, ⟨89, _⟩ => ⟨S8x65536, .i32⟩
  | .hbm, ⟨90, _⟩ => ⟨S8x65536, .i32⟩
  | .hbm, ⟨91, _⟩ => ⟨S524288, .i32⟩
  | .hbm, ⟨92, _⟩ => ⟨S524288x256, .f32⟩
  | .hbm, ⟨93, _⟩ => ⟨S_, .f32⟩
  | .hbm, ⟨94, _⟩ => ⟨S32768x256, .f32⟩
  | .hbm, ⟨95, _⟩ => ⟨S524288x1, .i32⟩
  | .hbm, ⟨96, _⟩ => ⟨S32768x256, .f32⟩
  | .hbm, ⟨97, _⟩ => ⟨S8x4096x256, .f32⟩
  | .hbm, ⟨98, _⟩ => ⟨S8x4096x256, .f32⟩
  | .local _ .vmem, ⟨0, _⟩ => ⟨S8x256x256, .f32⟩
  | .local _ .vmem, ⟨1, _⟩ => ⟨S8x256x256, .f32⟩
  | .local _ .vmem, ⟨2, _⟩ => ⟨S256x256, .f32⟩
  | .local _ .vmem, ⟨3, _⟩ => ⟨S256, .f32⟩
  | .local _ .vmem, ⟨4, _⟩ => ⟨S8x256x256, .f32⟩
  | .local _ .vmem, ⟨5, _⟩ => ⟨S8x256x256, .f32⟩
  | .local _ .vmem, ⟨6, _⟩ => ⟨S8x256x256, .f32⟩
  | .local _ .vmem, ⟨7, _⟩ => ⟨S8x256x256, .f32⟩
  | .local _ .vmem, ⟨8, _⟩ => ⟨S8x256x256, .f32⟩
  | .local _ .vmem, ⟨9, _⟩ => ⟨S8x256x256, .f32⟩
  | .local _ .vmem, ⟨10, _⟩ => ⟨S256, .f32⟩
  | .local _ .vmem, ⟨11, _⟩ => ⟨S256, .f32⟩
  | .local _ .vmem, ⟨12, _⟩ => ⟨S8x256, .i32⟩
  | .local _ .vmem, ⟨13, _⟩ => ⟨S8x256, .i32⟩
  | .local _ .vmem, ⟨14, _⟩ => ⟨S8x256x256, .f32⟩
  | .local _ .vmem, ⟨15, _⟩ => ⟨S8x256x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v6 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_c_2 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_c_3 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_c : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_v20 : Ref sig .tc := ⟨.hbm, 91, rfl⟩
abbrev main_v21 : Ref sig .tc := ⟨.hbm, 92, rfl⟩
abbrev main_cst : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256_S256_0 : ∀ a, (![0] : Fin 1 → Nat) a + S256.size a ≤ S256.size a
  h_S256 : 0 < S256.numel
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  transposes_S256x256_p1_0_S256x256 : S256x256.Transposes [1, 0] S256x256
  shapeCasts_S256_S1x256 : S256.ShapeCasts S1x256
  broadcasts_S1x256_S256x256 : S1x256.Broadcasts S256x256
  shapeCasts_S256x256_S1x256x256 : S256x256.ShapeCasts S1x256x256
  inb_S8x256x256_S1x256x256_1_0_0 : ∀ a, (![1, 0, 0] : Fin 3 → Nat) a + S1x256x256.size a ≤ S8x256x256.size a
  inb_S8x256x256_S1x256x256_2_0_0 : ∀ a, (![2, 0, 0] : Fin 3 → Nat) a + S1x256x256.size a ≤ S8x256x256.size a
  inb_S8x256x256_S1x256x256_3_0_0 : ∀ a, (![3, 0, 0] : Fin 3 → Nat) a + S1x256x256.size a ≤ S8x256x256.size a
  inb_S8x256x256_S1x256x256_4_0_0 : ∀ a, (![4, 0, 0] : Fin 3 → Nat) a + S1x256x256.size a ≤ S8x256x256.size a
  inb_S8x256x256_S1x256x256_5_0_0 : ∀ a, (![5, 0, 0] : Fin 3 → Nat) a + S1x256x256.size a ≤ S8x256x256.size a
  inb_S8x256x256_S1x256x256_6_0_0 : ∀ a, (![6, 0, 0] : Fin 3 → Nat) a + S1x256x256.size a ≤ S8x256x256.size a
  inb_S8x256x256_S1x256x256_7_0_0 : ∀ a, (![7, 0, 0] : Fin 3 → Nat) a + S1x256x256.size a ≤ S8x256x256.size a
  slices_S8x2x65536_S8x1x65536_0_0_0 : S8x2x65536.Slices ![0, 0, 0] S8x1x65536
  shapeCasts_S8x1x65536_S8x65536 : S8x1x65536.ShapeCasts S8x65536
  slices_S8x2x65536_S8x1x65536_0_1_0 : S8x2x65536.Slices ![0, 1, 0] S8x1x65536
  bcast_S_S8x65536 : S_.BroadcastsInDim S8x65536 (![] : Fin 0 → Fin S8x65536.rank)
  shapeCasts_S8x65536_S8x65536x1 : S8x65536.ShapeCasts S8x65536x1
  bcast_S_S8x65536x1 : S_.BroadcastsInDim S8x65536x1 (![] : Fin 0 → Fin S8x65536x1.rank)
  bcast_S1_S1x1x1_2 : S1.BroadcastsInDim S1x1x1 (![2] : Fin 1 → Fin S1x1x1.rank)
  bcast_S1x1x1_S8x65536x1_0_1_2 : S1x1x1.BroadcastsInDim S8x65536x1 (![0, 1, 2] : Fin 3 → Fin S8x65536x1.rank)
  reducesTo_S8x65536x1_S8x65536_d2 : S8x65536x1.ReducesTo [2] S8x65536
  h_S_ : 0 < S_.numel
  bcast_S8x65536_S8x65536x1_0_1 : S8x65536.BroadcastsInDim S8x65536x1 (![0, 1] : Fin 2 → Fin S8x65536x1.rank)
  bcast_S8x65536_S8x65536x256_0_1 : S8x65536.BroadcastsInDim S8x65536x256 (![0, 1] : Fin 2 → Fin S8x65536x256.rank)
  bcast_S_S8x65536x256 : S_.BroadcastsInDim S8x65536x256 (![] : Fin 0 → Fin S8x65536x256.rank)
  bcast_S8x65536x1_S8x65536x256_0_1_2 : S8x65536x1.BroadcastsInDim S8x65536x256 (![0, 1, 2] : Fin 3 → Fin S8x65536x256.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x65536_0_1 : S8x1.BroadcastsInDim S8x65536 (![0, 1] : Fin 2 → Fin S8x65536.rank)
  shapeCasts_S8x65536_S524288 : S8x65536.ShapeCasts S524288
  shapeCasts_S8x65536x256_S524288x256 : S8x65536x256.ShapeCasts S524288x256
  bcast_S_S32768x256 : S_.BroadcastsInDim S32768x256 (![] : Fin 0 → Fin S32768x256.rank)
  bcast_S524288_S524288x1_0 : S524288.BroadcastsInDim S524288x1 (![0] : Fin 1 → Fin S524288x1.rank)
  shapeCasts_S32768x256_S8x4096x256 : S32768x256.ShapeCasts S8x4096x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  shapeCasts_S256_S1x1x256 : S256.ShapeCasts S1x1x256
  broadcasts_S1x1x256_S8x256x256 : S1x1x256.Broadcasts S8x256x256
  inb_S8x256_S8x256_0_0 : ∀ a, (![0, 0] : Fin 2 → Nat) a + S8x256.size a ≤ S8x256.size a
  h_S8x256 : 0 < S8x256.numel
  dot_S256x256_S256x256_S256x256_1_0_0_1_n_n_wf : DotDims.WF S256x256 S256x256 S256x256 [1] [0] [0] [1] [] []
  gather_S8x4096_S8x65536x1_S8x65536_n_1_0_0_1_2_11_wf : GatherDims.WF S8x4096 S8x65536x1 S8x65536 [] [1] [0] [1] [0] 2 ![1, 1]
  gather_S8x4096x256_S8x65536x1_S8x65536x256_2_1_0_0_1_2_11256_wf : GatherDims.WF S8x4096x256 S8x65536x1 S8x65536x256 [2] [1] [0] [1] [0] 2 ![1, 1, 256]
  scatter_S32768x256_S524288x1_S524288x256_1_0_0_1_wf : ScatterDims.WF S32768x256 S524288x1 S524288x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S8x4096x256.size a
  hwx0_0 : ∀ i : grid0.Coords, EltTy.bits .f32 = 32 ∨ (Rect.block (s := S8x4096x256) S8x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S8x4096x256.size a
  hwx0_3 : ∀ i : grid0.Coords, EltTy.bits .f32 = 32 ∨ (Rect.block (s := S8x4096x256) S8x256x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x256.size a ≤ S8x4096x256.size a
  hwx1_0 : ∀ i : grid1.Coords, EltTy.bits .f32 = 32 ∨ (Rect.block (s := S8x4096x256) S8x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x256.size a ≤ S8x4096x256.size a
  hwx1_1 : ∀ i : grid1.Coords, EltTy.bits .f32 = 32 ∨ (Rect.block (s := S8x4096x256) S8x256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x256.size a ≤ S8x4096.size a
  hwx1_4 : ∀ i : grid1.Coords, EltTy.bits .i32 = 32 ∨ (Rect.block (s := S8x4096) S8x256.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256x256.size a ≤ S8x4096x256.size a
  hwx1_5 : ∀ i : grid1.Coords, EltTy.bits .f32 = 32 ∨ (Rect.block (s := S8x4096x256) S8x256x256.size (cc1_transform_5 i) (hinb1_5 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def gather_S8x4096_S8x65536x1_S8x65536_n_1_0_0_1_2_11 : GatherDims S8x4096 S8x65536x1 S8x65536 where
  offsetDims := []
  collapsedSliceDims := [1]
  operandBatchingDims := [0]
  startIndicesBatchingDims := [0]
  startIndexMap := [1]
  indexVectorDim := 2
  sliceSizes := ![1, 1]
  wf := gather_S8x4096_S8x65536x1_S8x65536_n_1_0_0_1_2_11_wf
def gather_S8x4096x256_S8x65536x1_S8x65536x256_2_1_0_0_1_2_11256 : GatherDims S8x4096x256 S8x65536x1 S8x65536x256 where
  offsetDims := [2]
  collapsedSliceDims := [1]
  operandBatchingDims := [0]
  startIndicesBatchingDims := [0]
  startIndexMap := [1]
  indexVectorDim := 2
  sliceSizes := ![1, 1, 256]
  wf := gather_S8x4096x256_S8x65536x1_S8x65536x256_2_1_0_0_1_2_11256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf

abbrev win0_0 : Pipeline.Window sig grid0 :=
  Pipeline.Window.ofSpec (Memref.whole main_arg0) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S8x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S8x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S8x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S8x256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x4096x256 : Shape := ⟨3, ![8, 4096, 256]⟩
abbrev S256x256 : Shape := ⟨2, ![256, 256]⟩
abbrev S256 : Shape := ⟨1, ![256]⟩
abbrev S8x2x65536 : Shape := ⟨3, ![8, 2, 65536]⟩
abbrev S8x4096 : Shape := ⟨2, ![8, 4096]⟩
abbrev S1x1x256 : Shape := ⟨3, ![1, 1, 256]⟩
abbrev S8x1x65536 : Shape := ⟨3, ![8, 1, 65536]⟩
abbrev S8x65536 : Shape := ⟨2, ![8, 65536]⟩
abbrev S_ : Shape := ⟨0, ![]⟩
abbrev S8x65536x1 : Shape := ⟨3, ![8, 65536, 1]⟩
abbrev S1 : Shape := ⟨1, ![1]⟩
abbrev S1x1x1 : Shape := ⟨3, ![1, 1, 1]⟩
abbrev S8x65536x256 : Shape := ⟨3, ![8, 65536, 256]⟩
abbrev S8 : Shape := ⟨1, ![8]⟩
abbrev S8x1 : Shape := ⟨2, ![8, 1]⟩
abbrev S524288 : Shape := ⟨1, ![524288]⟩
abbrev S524288x256 : Shape := ⟨2, ![524288, 256]⟩
abbrev S32768x256 : Shape := ⟨2, ![32768, 256]⟩
abbrev S524288x1 : Shape := ⟨2, ![524288, 1]⟩
abbrev S8x4096x1 : Shape := ⟨3, ![8, 4096, 1]⟩

abbrev nBuf : Space → Nat
  | .hbm => 141
  | .vmem => 0
  | .smem => 0
  | _ => 0

abbrev hbmTy0_0 (i : Nat) : BufTy := match i % 128 with
  | 0 => ⟨S8x4096x256, .f32⟩
  | 1 => ⟨S256x256, .f32⟩
  | 2 => ⟨S256, .f32⟩
  | 3 => ⟨S256, .f32⟩
  | 4 => ⟨S256, .f32⟩
  | 5 => ⟨S8x2x65536, .i32⟩
  | 6 => ⟨S8x4096, .i32⟩
  | 7 => ⟨S8x4096x256, .f32⟩
  | 8 => ⟨S1x1x256, .f32⟩
  | 9 => ⟨S8x4096x256, .f32⟩
  | 10 => ⟨S8x4096x256, .f32⟩
  | 11 => ⟨S8x1x65536, .i32⟩
  | 12 => ⟨S8x65536, .i32⟩
  | 13 => ⟨S8x1x65536, .i32⟩
  | 14 => ⟨S8x65536, .i32⟩
  | 15 => ⟨S8x4096, .f32⟩
  | 16 => ⟨S_, .i32⟩
  | 17 => ⟨S8x65536, .i32⟩
  | 18 => ⟨S8x65536, .i1⟩
  | 19 => ⟨S_, .i32⟩
  | 20 => ⟨S8x65536, .i32⟩
  | 21 => ⟨S8x65536, .i32⟩
  | 22 => ⟨S8x65536, .i32⟩
  | 23 => ⟨S8x65536x1, .i32⟩
  | 24 => ⟨S1, .i32⟩
  | 25 => ⟨S_, .i32⟩
  | 26 => ⟨S8x65536x1, .i32⟩
  | 27 => ⟨S8x65536x1, .i1⟩
  | 28 => ⟨S1x1x1, .i32⟩
  | 29 => ⟨S8x65536x1, .i32⟩
  | 30 => ⟨S8x65536x1, .i1⟩
  | 31 => ⟨S8x65536x1, .i1⟩
  | 32 => ⟨S_, .i1⟩
  | 33 => ⟨S8x65536, .i1⟩
  | 34 => ⟨S8x65536, .f32⟩
  | 35 => ⟨S_, .f32⟩
  | 36 => ⟨S8x65536, .f32⟩
  | 37 => ⟨S8x65536, .f32⟩
  | 38 => ⟨S_, .i32⟩
  | 39 => ⟨S8x65536, .i32⟩
  | 40 => ⟨S8x65536, .i1⟩
  | 41 => ⟨S_, .i32⟩
  | 42 => ⟨S8x65536, .i32⟩
  | 43 => ⟨S8x65536, .i32⟩
  | 44 => ⟨S8x65536, .i32⟩
  | 45 => ⟨S8x65536x1, .i32⟩
  | 46 => ⟨S1, .i32⟩
  | 47 => ⟨S_, .i32⟩
  | 48 => ⟨S8x65536x1, .i32⟩
  | 49 => ⟨S8x65536x1, .i1⟩
  | 50 => ⟨S1x1x1, .i32⟩
  | 51 => ⟨S8x65536x1, .i32⟩
  | 52 => ⟨S8x65536x1, .i1⟩
  | 53 => ⟨S8x65536x1, .i1⟩
  | 54 => ⟨S_, .i1⟩
  | 55 => ⟨S8x65536, .i1⟩
  | 56 => ⟨S8x65536, .f32⟩
  | 57 => ⟨S_, .f32⟩
  | 58 => ⟨S8x65536, .f32⟩
  | 59 => ⟨S8x65536, .f32⟩
  | 60 => ⟨S8x65536, .f32⟩
  | 61 => ⟨S8x65536x1, .i32⟩
  | 62 => ⟨S_, .i32⟩
  | 63 => ⟨S8x65536x1, .i32⟩
  | 64 => ⟨S8x65536x1, .i1⟩
  | 65 => ⟨S_, .i32⟩
  | 66 => ⟨S8x65536x1, .i32⟩
  | 67 => ⟨S8x65536x1, .i32⟩
  | 68 => ⟨S8x65536x1, .i32⟩
  | 69 => ⟨S1, .i32⟩
  | 70 => ⟨S_, .i32⟩
  | 71 => ⟨S8x65536x1, .i32⟩
  | 72 => ⟨S8x65536x1, .i1⟩
  | 73 => ⟨S1x1x1, .i32⟩
  | 74 => ⟨S8x65536x1, .i32⟩
  | 75 => ⟨S8x65536x1, .i1⟩
  | 76 => ⟨S8x65536x1, .i1⟩
  | 77 => ⟨S_, .i1⟩
  | 78 => ⟨S8x65536, .i1⟩
  | 79 => ⟨S8x65536x256, .f32⟩
  | 80 => ⟨S8x65536x256, .i1⟩
  | 81 => ⟨S_, .f32⟩
  | 82 => ⟨S8x65536x256, .f32⟩
  | 83 => ⟨S8x65536x256, .f32⟩
  | 84 => ⟨S8x65536x1, .f32⟩
  | 85 => ⟨S8x65536x256, .f32⟩
  | 86 => ⟨S8x65536x256, .f32⟩
  | 87 => ⟨S8, .i32⟩
  | 88 => ⟨S8x1, .i32⟩
  | 89 => ⟨S_, .i32⟩
  | 90 => ⟨S8x1, .i32⟩
  | 91 => ⟨S8x1, .i32⟩
  | 92 => ⟨S8x65536, .i32⟩
  | 93 => ⟨S8x65536, .i32⟩
  | 94 => ⟨S524288, .i32⟩
  | 95 => ⟨S524288x256, .f32⟩
  | 96 => ⟨S_, .f32⟩
  | 97 => ⟨S32768x256, .f32⟩
  | 98 => ⟨S524288x1, .i32⟩
  | 99 => ⟨S32768x256, .f32⟩
  | 100 => ⟨S8x4096x256, .f32⟩
  | 101 => ⟨S_, .f32⟩
  | 102 => ⟨S_, .f32⟩
  | 103 => ⟨S8x4096x256, .f32⟩
  | 104 => ⟨S8x4096x256, .f32⟩
  | 105 => ⟨S8x4096x256, .f32⟩
  | 106 => ⟨S_, .f32⟩
  | 107 => ⟨S8x4096, .f32⟩
  | 108 => ⟨S8x4096x1, .f32⟩
  | 109 => ⟨S_, .f32⟩
  | 110 => ⟨S8x4096x1, .f32⟩
  | 111 => ⟨S8x4096x1, .f32⟩
  | 112 => ⟨S8x4096x256, .f32⟩
  | 113 => ⟨S8x4096x256, .f32⟩
  | 114 => ⟨S8x4096x256, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S8x4096x256, .f32⟩
  | 122 => ⟨S8x4096x256, .f32⟩
  | 123 => ⟨S_, .f32⟩
  | 124 => ⟨S8x4096x1, .f32⟩
  | 125 => ⟨S8x4096x1, .f32⟩
  | 126 => ⟨S8x4096x1, .f32⟩
  | 127 => ⟨S8x4096x256, .f32⟩
  | _ => ⟨S8x4096x256, .f32⟩

abbrev hbmTy0_1 (i : Nat) : BufTy := match i % 128 with
  | 0 => ⟨S8x4096x256, .f32⟩
  | 1 => ⟨S1x1x256, .f32⟩
  | 2 => ⟨S8x4096x256, .f32⟩
  | 3 => ⟨S8x4096x256, .f32⟩
  | 4 => ⟨S1x1x256, .f32⟩
  | 5 => ⟨S8x4096x256, .f32⟩
  | 6 => ⟨S8x4096x256, .f32⟩
  | 7 => ⟨S_, .f32⟩
  | 8 => ⟨S8x4096x256, .f32⟩
  | 9 => ⟨S8x4096x256, .f32⟩
  | 10 => ⟨S8x4096x1, .f32⟩
  | 11 => ⟨S8x4096x256, .f32⟩
  | 12 => ⟨S8x4096x256, .f32⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v9 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_c_2 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_c_3 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_c : Ref sig .tc := ⟨.hbm, 89, rfl⟩
abbrev main_v19 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_cst : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_cst_0 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_cst_1 : Ref sig .tc := ⟨.hbm, 106, rfl⟩
abbrev main_v33 : Ref sig .tc := ⟨.hbm, 107, rfl⟩
abbrev main_v34 : Ref sig .tc := ⟨.hbm, 108, rfl⟩
abbrev main_cst_2 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_3 : Ref sig .tc := ⟨.hbm, 115, rfl⟩
abbrev main_v40 : Ref sig .tc := ⟨.hbm, 116, rfl⟩
abbrev main_v41 : Ref sig .tc := ⟨.hbm, 117, rfl⟩
abbrev main_cst_4 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_5 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_call3_cst : Ref sig .tc := ⟨.hbm, 135, rfl⟩
abbrev main_call3_v0 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  slices_S8x2x65536_S8x1x65536_0_0_0 : S8x2x65536.Slices ![0, 0, 0] S8x1x65536
  shapeCasts_S8x1x65536_S8x65536 : S8x1x65536.ShapeCasts S8x65536
  slices_S8x2x65536_S8x1x65536_0_1_0 : S8x2x65536.Slices ![0, 1, 0] S8x1x65536
  bcast_S_S8x65536 : S_.BroadcastsInDim S8x65536 (![] : Fin 0 → Fin S8x65536.rank)
  shapeCasts_S8x65536_S8x65536x1 : S8x65536.ShapeCasts S8x65536x1
  bcast_S_S8x65536x1 : S_.BroadcastsInDim S8x65536x1 (![] : Fin 0 → Fin S8x65536x1.rank)
  bcast_S1_S1x1x1_2 : S1.BroadcastsInDim S1x1x1 (![2] : Fin 1 → Fin S1x1x1.rank)
  bcast_S1x1x1_S8x65536x1_0_1_2 : S1x1x1.BroadcastsInDim S8x65536x1 (![0, 1, 2] : Fin 3 → Fin S8x65536x1.rank)
  reducesTo_S8x65536x1_S8x65536_d2 : S8x65536x1.ReducesTo [2] S8x65536
  h_S_ : 0 < S_.numel
  bcast_S8x65536_S8x65536x1_0_1 : S8x65536.BroadcastsInDim S8x65536x1 (![0, 1] : Fin 2 → Fin S8x65536x1.rank)
  bcast_S8x65536_S8x65536x256_0_1 : S8x65536.BroadcastsInDim S8x65536x256 (![0, 1] : Fin 2 → Fin S8x65536x256.rank)
  bcast_S_S8x65536x256 : S_.BroadcastsInDim S8x65536x256 (![] : Fin 0 → Fin S8x65536x256.rank)
  bcast_S8x65536x1_S8x65536x256_0_1_2 : S8x65536x1.BroadcastsInDim S8x65536x256 (![0, 1, 2] : Fin 3 → Fin S8x65536x256.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x65536_0_1 : S8x1.BroadcastsInDim S8x65536 (![0, 1] : Fin 2 → Fin S8x65536.rank)
  shapeCasts_S8x65536_S524288 : S8x65536.ShapeCasts S524288
  shapeCasts_S8x65536x256_S524288x256 : S8x65536x256.ShapeCasts S524288x256
  bcast_S_S32768x256 : S_.BroadcastsInDim S32768x256 (![] : Fin 0 → Fin S32768x256.rank)
  bcast_S524288_S524288x1_0 : S524288.BroadcastsInDim S524288x1 (![0] : Fin 1 → Fin S524288x1.rank)
  shapeCasts_S32768x256_S8x4096x256 : S32768x256.ShapeCasts S8x4096x256
  bcast_S_S8x4096x256 : S_.BroadcastsInDim S8x4096x256 (![] : Fin 0 → Fin S8x4096x256.rank)
  reducesTo_S8x4096x256_S8x4096_d2 : S8x4096x256.ReducesTo [2] S8x4096
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x256_0_1_2 : S8x4096x1.BroadcastsInDim S8x4096x256 (![0, 1, 2] : Fin 3 → Fin S8x4096x256.rank)
  dot_S8x4096x256_S256x256_S8x4096x256_2_1_01_0_n_n_wf : DotDims.WF S8x4096x256 S256x256 S8x4096x256 [2] [1] [0, 1] [0] [] []
  gather_S8x4096_S8x65536x1_S8x65536_n_1_0_0_1_2_11_wf : GatherDims.WF S8x4096 S8x65536x1 S8x65536 [] [1] [0] [1] [0] 2 ![1, 1]
  gather_S8x4096x256_S8x65536x1_S8x65536x256_2_1_0_0_1_2_11256_wf : GatherDims.WF S8x4096x256 S8x65536x1 S8x65536x256 [2] [1] [0] [1] [0] 2 ![1, 1, 256]
  scatter_S32768x256_S524288x1_S524288x256_1_0_0_1_wf : ScatterDims.WF S32768x256 S524288x1 S524288x256 [1] [0] [0] 1

variable [Facts₀]

def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf
def gather_S8x4096_S8x65536x1_S8x65536_n_1_0_0_1_2_11 : GatherDims S8x4096 S8x65536x1 S8x65536 where
  offsetDims := []
  collapsedSliceDims := [1]
  operandBatchingDims := [0]
  startIndicesBatchingDims := [0]
  startIndexMap := [1]
  indexVectorDim := 2
  sliceSizes := ![1, 1]
  wf := gather_S8x4096_S8x65536x1_S8x65536_n_1_0_0_1_2_11_wf
def gather_S8x4096x256_S8x65536x1_S8x65536x256_2_1_0_0_1_2_11256 : GatherDims S8x4096x256 S8x65536x1 S8x65536x256 where
  offsetDims := [2]
  collapsedSliceDims := [1]
  operandBatchingDims := [0]
  startIndicesBatchingDims := [0]
  startIndexMap := [1]
  indexVectorDim := 2
  sliceSizes := ![1, 1, 256]
  wf := gather_S8x4096x256_S8x65536x1_S8x65536x256_2_1_0_0_1_2_11256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf

class Facts : Prop extends Facts₀ where

variable [Facts]
-- ==== Proof.Spec.lean ====
/-
  What the layer computes, one output row at a time, on the extended reals.

  A node's projected feature row is `h`, the row of messages summed into it is `a`.  The layer mixes them as
  `h + a · 2⁻⁶` (the aggregate divided by the square root of the 4096 nodes), normalises the mixed row by its own
  mean and variance over its 256 entries, scales by `γ`, shifts by `β`, clips below at zero and multiplies by the
  node's mask.  One projected entry is the inner product of a feature row with a weight row, plus the bias.

  Also here: the one law that joins the two spellings of the mixing weight, `x / √4096 = x · 2⁻⁶` for every
  extended real `x`.
-/
import Idealize.ShloMosaic.Lib.ValueIdx
import Idealize.ShloMosaic.PureOps.Ideal.Laws

noncomputable section

open scoped BigOperators

namespace Cert.Spec

open Idealize.ShloMosaic

/-- The weight of the aggregated messages: the float word of `2⁻⁶ = 1/64`. -/
def aggScale : EReal := Ideal.ofBits .f32 0x3C800000#32
/-- The length of a feature row, `256`, as the float word both programs divide by. -/
def rowLen : EReal := Ideal.ofBits .f32 0x43800000#32
/-- The offset added to the variance before the reciprocal square root. -/
def varEps : EReal := Ideal.ofBits .f32 0x3727C5AC#32
/-- The floor of the clipping, the float word of zero. -/
def floorZero : EReal := Ideal.ofBits .f32 0x00000000#32

/-- The mixed row: projected features plus the weighted aggregate. -/
def mixed (h a : Fin 256 → EReal) (k : Fin 256) : EReal := h k + a k * aggScale

/-- The mean of a row of 256 entries. -/
def rowMean (v : Fin 256 → EReal) : EReal := Ideal.div (∑ k : Fin 256, v k) rowLen

/-- The mixed row with its mean taken off. -/
def centred (h a : Fin 256 → EReal) (k : Fin 256) : EReal := mixed h a k - rowMean (mixed h a)

/-- The variance of the mixed row: the mean of the squared centred entries. -/
def rowVar (h a : Fin 256 → EReal) : EReal := rowMean fun k => centred h a k * centred h a k

/-- One entry of the layer's output row: normalised, scaled, shifted, clipped at zero, masked. -/
def lnRow (h a g be : Fin 256 → EReal) (nm : EReal) (o : Fin 256) : EReal :=
  max (centred h a o * Ideal.rsqrt (rowVar h a + varEps) * g o + be o) floorZero * nm

/-- One entry of the projection: a feature row against a weight row, plus the bias. -/
def linEntry (x w : Fin 256 → EReal) (bias : EReal) : EReal := (∑ k : Fin 256, x k * w k) + bias

/-- The float word `0x45800000` is the real number 4096. -/
theorem ofBits_4096 : Ideal.ofBits .f32 0x45800000#32 = ((4096 : ℝ) : EReal) := by
  simp [Ideal.ofBits, Ideal.ieee, -EReal.coe_mul]; norm_num

/-- The float word `0x3C800000` is the real number 1/64. -/
theorem aggScale_eq : aggScale = ((1 / 64 : ℝ) : EReal) := by
  unfold aggScale
  simp [Ideal.ofBits, Ideal.ieee, -EReal.coe_mul]; norm_num

/-- The square root of 4096 is 64. -/
theorem sqrt_4096 : Ideal.sqrt (Ideal.ofBits .f32 0x45800000#32) = ((64 : ℝ) : EReal) := by
  rw [ofBits_4096, Ideal.sqrt_coe, if_neg (by norm_num)]
  congr 1
  rw [show (4096 : ℝ) = 64 * 64 by norm_num]
  exact Real.sqrt_mul_self (by norm_num)

/-- Dividing by the square root of 4096 is multiplying by `2⁻⁶`, on every extended real. -/
theorem div_sqrt_4096 (x : EReal) :
    Ideal.div x (Ideal.sqrt (Ideal.ofBits .f32 0x45800000#32)) = x * aggScale := by
  rw [sqrt_4096, aggScale_eq, Ideal.div_coe (by norm_num : (64 : ℝ) ≠ 0)]

/-! ## The same, as whole arrays over the program's literal shapes -/

open Idealize.ShloMosaic.ValueIdx

/-- The projection of every node's feature row: entry `(b, n, o)` is feature row `(b, n, ·)` against weight row `(o, ·)`
    plus `bias o`. -/
def linArr (x : (⟨3, ![8, 4096, 256]⟩ : Shape).Idx → EReal) (w : (⟨2, ![256, 256]⟩ : Shape).Idx → EReal)
    (bias : (⟨1, ![256]⟩ : Shape).Idx → EReal) : (⟨3, ![8, 4096, 256]⟩ : Shape).Idx → EReal :=
  fun i => linEntry (fun k => x (ix3 (i 0 : Fin 8) (i 1 : Fin 4096) k)) (fun k => w (ix2 (i 2 : Fin 256) k))
    (bias (ix1 (i 2 : Fin 256)))

/-- The layer's output: entry `(b, n, o)` is entry `o` of the normalised row built from rows `(b, n, ·)` of the projected
    features `h` and of the aggregate `a`, masked by node `(b, n)`'s integer mask read as a number. -/
def lnArr (h a : (⟨3, ![8, 4096, 256]⟩ : Shape).Idx → EReal) (g be : (⟨1, ![256]⟩ : Shape).Idx → EReal)
    (nm : (⟨2, ![8, 4096]⟩ : Shape).Idx → BitVec 32) : (⟨3, ![8, 4096, 256]⟩ : Shape).Idx → EReal :=
  fun i => lnRow (fun k => h (ix3 (i 0 : Fin 8) (i 1 : Fin 4096) k)) (fun k => a (ix3 (i 0 : Fin 8) (i 1 : Fin 4096) k))
    (fun k => g (ix1 k)) (fun k => be (ix1 k))
    (((nm (ix2 (i 0 : Fin 8) (i 1 : Fin 4096))).toInt : ℝ) : EReal) (i 2 : Fin 256)

end Cert.Spec

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.PayLin.lean ====
import proofs.«141187_j70334384439537_1_alg».proof.Proof.Gen.KernelIdeal.Skeleton
import proofs.«141187_j70334384439537_1_alg».proof.Proof.Spec
import proofs.«141187_j70334384439537_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayLin

open Cert.KernelIdeal Cert.KernelIdeal.Gen Cert.Spec Idealize.ShloMosaic Idealize.ShloMosaic.ValueIdx

/-- One slab of the projection read at an entry: the slab's row against the weight's row, plus the bias entry.  The
    slab loses its unit axis, the cast to the narrower float format is the identity on the extended reals, the weight is
    read transposed, the product into the zero accumulator is the sum over the contracted coordinate, and the bias is one
    row repeated over the 256 rows. -/
theorem pay_lin (w : FVec Ideal S256x256 .bf16) (bias : Vec Ideal S256 .f32) (xs : Vec Ideal S1x256x256 .f32)
    (r o : Fin 256) :
    k0_pay1 (F := Ideal) w bias xs (ix3 (0 : Fin 1) r o)
      = linEntry (fun k => xs (ix3 (0 : Fin 1) r k)) (fun k => w (ix2 o k)) (bias (ix1 o)) := by
  unfold k0_pay1
  rw [shapeCast_ab_1ab_apply, addf_apply, broadcastTo_1b_ab_apply, shapeCast_a_1a_apply,
    Cert.LibDot.matmul_10_zero_apply _ rfl rfl rfl rfl rfl rfl]
  unfold linEntry
  congr 1
  refine Finset.sum_congr rfl fun k _ => ?_
  rw [truncf_apply, shapeCast_1ab_ab_apply, transpose_ix2_apply]

/-! ## The eight stores write the same function of (weight, bias, slab)

The body writes the eight batch slabs of its block one after another; each store's value is the same term up to the
names of its bound variables, with the weight either passed already narrowed or narrowed on the spot. -/

section Same
variable (wbf : FVec Ideal S256x256 .bf16) (v0 : Vec Ideal S256x256 .f32) (v2 : Vec Ideal S256 .f32)
  (v : Vec Ideal S1x256x256 .f32)

/-- Narrowing the weight to the shorter float format changes no entry on the extended reals. -/
theorem pay3_apply (i : S256x256.Idx) : k0_pay3 (F := Ideal) v0 i = v0 i := rfl

theorem pay2_eq : k0_pay2 (F := Ideal) wbf v2 v = k0_pay1 wbf v2 v := rfl
theorem pay8_eq : k0_pay8 (F := Ideal) wbf v2 v = k0_pay1 wbf v2 v := rfl
theorem pay9_eq : k0_pay9 (F := Ideal) wbf v2 v = k0_pay1 wbf v2 v := rfl
theorem pay10_eq : k0_pay10 (F := Ideal) wbf v2 v = k0_pay1 wbf v2 v := rfl
theorem pay4_eq : k0_pay4 (F := Ideal) v0 v2 v = k0_pay1 (k0_pay3 v0) v2 v := rfl
theorem pay5_eq : k0_pay5 (F := Ideal) v0 v2 v = k0_pay1 (k0_pay3 v0) v2 v := rfl
theorem pay7_eq : k0_pay7 (F := Ideal) (k0_pay6 v0 v2 v) = k0_pay1 (k0_pay3 v0) v2 v := rfl

end Same

end Cert.KernelIdeal.PayLin

end
-- ==== Proof.Region0.lean ====
import proofs.«141187_j70334384439537_1_alg».proof.Proof.Gen.KernelIdeal.Frame
import proofs.«141187_j70334384439537_1_alg».proof.Proof.PayLin
import proofs.«141187_j70334384439537_1_alg».proof.Proof.Spec
import Idealize.ShloMosaic.Lib.ValueIdx
import Idealize.ShloMosaic.Lib.Pipeline.Value

set_option maxRecDepth 16384

noncomputable section

open scoped BigOperators

namespace Cert.KernelIdeal.Region0

open Cert.KernelIdeal Cert.KernelIdeal.Gen Cert.Spec Idealize.ShloMosaic Idealize.ShloMosaic.TcCoe Idealize.ShloMosaic.ValueIdx Idealize.SL.Sem
open Idealize.ShloMosaic.Pipeline (Dat Cfg Window)

/-! ## One block of the projection

The body writes the eight batch slabs of its output block by eight stores.  Each slab is the same function of the block's
inputs, so the block reads back as ONE function of its index: entry `(b, r, o)` is row `(b, r, ·)` of the feature block
against row `(o, ·)` of the weight, plus `bias o`. -/

theorem zeros2 : (![0, 0] : Fin 2 → Nat) = fun _ => 0 := funext fun a => by fin_cases a <;> rfl
theorem zeros1 : (![0] : Fin 1 → Nat) = fun _ => 0 := funext fun a => by fin_cases a <;> rfl

/-- The projection of one feature block against the whole weight and bias. -/
def linBlk (x0 : Vec Ideal S8x256x256 .f32) (x1 : Vec Ideal S256x256 .f32) (x2 : Vec Ideal S256 .f32) :
    Vec Ideal S8x256x256 .f32 :=
  fun y => linEntry (fun k => x0 (ix3 (y 0 : Fin 8) (y 1 : Fin 256) k)) (fun k => x1 (ix2 (y 2 : Fin 256) k))
    (x2 (ix1 (y 2 : Fin 256)))

/-- A slab rectangle of the block (one batch, all rows, all columns) places its index `(u, r, o)` at `(b, r, o)`. -/
theorem emb_slab (off : Fin 3 → Nat) (inb : ∀ a, off a + S1x256x256.size a ≤ S8x256x256.size a) (b : Fin 8)
    (h0 : off 0 = b.val) (h1 : off 1 = 0) (h2 : off 2 = 0) (u : Fin 1) (r o : Fin 256) :
    (Rect.unit (s := S8x256x256) off S1x256x256.size inb).emb (ix3 u r o) = ix3 b r o := by
  funext a; apply Fin.ext
  match a with
  | ⟨0, _⟩ => show off 0 + 1 * u.val = b.val; omega
  | ⟨1, _⟩ => show off 1 + 1 * r.val = r.val; omega
  | ⟨2, _⟩ => show off 2 + 1 * o.val = o.val; omega

/-- One store's payload is the block function on its slab. -/
theorem slab_piece (x0 : Vec Ideal S8x256x256 .f32) (x1 : Vec Ideal S256x256 .f32) (x2 : Vec Ideal S256 .f32)
    (off : Fin 3 → Nat) (inb : ∀ a, off a + S1x256x256.size a ≤ S8x256x256.size a) (b : Fin 8)
    (h0 : off 0 = b.val) (h1 : off 1 = 0) (h2 : off 2 = 0) (x : S1x256x256.Idx) :
    k0_pay1 (F := Ideal) (k0_pay3 (View.ld x1 r0_0)) (View.ld x2 r0_1)
        (View.ld x0 (Rect.unit (s := S8x256x256) off S1x256x256.size inb)) x
      = linBlk x0 x1 x2 ((Rect.unit (s := S8x256x256) off S1x256x256.size inb).emb x) := by
  obtain ⟨u, r, o, rfl⟩ : ∃ (u : Fin 1) (r o : Fin 256), x = ix3 u r o := ⟨x 0, x 1, x 2, eq_ix3 x⟩
  rw [emb_slab off inb b h0 h1 h2]
  obtain rfl : u = 0 := Subsingleton.elim _ _
  rw [PayLin.pay_lin, View.ld_unit_zero zeros2, View.ld_unit_zero zeros1]
  have e : (fun k : Fin 256 => View.ld x0 (Rect.unit (s := S8x256x256) off S1x256x256.size inb) (ix3 (0 : Fin 1) r k))
      = fun k => x0 (ix3 b r k) := funext fun k => by
    show x0 ((Rect.unit (s := S8x256x256) off S1x256x256.size inb).emb (ix3 (0 : Fin 1) r k)) = _
    rw [emb_slab off inb b h0 h1 h2]
  rw [e]
  rfl

/-- The block after the body: the eight slabs read back as the one block function. -/
theorem out_block (x0 : Vec Ideal S8x256x256 .f32) (x1 : Vec Ideal S256x256 .f32) (x2 : Vec Ideal S256 .f32) :
    out0_3 (F := Ideal) x0 x1 x2 = linBlk x0 x1 x2 := by
  funext y
  unfold out0_3
  refine View.canon_apply_of_pieces (linBlk x0 x1 x2) _ ?_ y (cover0_3 _ _ _ _ _ _ _ _ y)
  intro p hp
  simp only [List.mem_cons, List.not_mem_nil, or_false] at hp
  rcases hp with rfl | rfl | rfl | rfl | rfl | rfl | rfl | rfl
  · rw [PayLin.pay2_eq]; exact fun x => slab_piece x0 x1 x2 _ _ 7 rfl rfl rfl x
  · exact fun x => slab_piece x0 x1 x2 _ _ 6 rfl rfl rfl x
  · rw [PayLin.pay10_eq]; exact fun x => slab_piece x0 x1 x2 _ _ 5 rfl rfl rfl x
  · rw [PayLin.pay9_eq]; exact fun x => slab_piece x0 x1 x2 _ _ 4 rfl rfl rfl x
  · rw [PayLin.pay8_eq]; exact fun x => slab_piece x0 x1 x2 _ _ 3 rfl rfl rfl x
  · rw [PayLin.pay7_eq]; exact fun x => slab_piece x0 x1 x2 _ _ 2 rfl rfl rfl x
  · rw [PayLin.pay5_eq]; exact fun x => slab_piece x0 x1 x2 _ _ 1 rfl rfl rfl x
  · rw [PayLin.pay4_eq]; exact fun x => slab_piece x0 x1 x2 _ _ 0 rfl rfl rfl x

/-! ## From the blocks to the array -/

/-- The printed index maps over the grid: the feature window and the output window sit at block row `t` of the node
    axis, at block 0 of the other two; the weight and the bias windows are the whole arrays at every point. -/
theorem block_rows : ∀ t : Fin cfg0.N,
    win0_0.index t (0 : Fin 3) = 0 ∧ win0_0.index t (1 : Fin 3) = t.val ∧ win0_0.index t (2 : Fin 3) = 0
    ∧ win0_3.index t (0 : Fin 3) = 0 ∧ win0_3.index t (1 : Fin 3) = t.val ∧ win0_3.index t (2 : Fin 3) = 0
    ∧ win0_1.index t (0 : Fin 2) = 0 ∧ win0_1.index t (1 : Fin 2) = 0
    ∧ win0_2.index t (0 : Fin 1) = 0 :=
  (by decide +kernel : ∀ t : Fin grid0.N, _)

/-- A block entry is the array entry it sits at, once the block's feature rows are the array's rows there and the
    weight and bias blocks are the whole weight and bias. -/
theorem block_entry_eq (X : S8x4096x256.Idx → EReal) (W : S256x256.Idx → EReal) (B : S256.Idx → EReal)
    (x0 : Vec Ideal S8x256x256 .f32) (x1 : Vec Ideal S256x256 .f32) (x2 : Vec Ideal S256 .f32)
    (y : S8x256x256.Idx) (i : S8x4096x256.Idx) (ho : (i 2).val = (y 2).val)
    (hx0 : ∀ k : Fin 256, x0 (ix3 (y 0 : Fin 8) (y 1 : Fin 256) k) = X (ix3 (i 0 : Fin 8) (i 1 : Fin 4096) k))
    (hx1 : ∀ o k : Fin 256, x1 (ix2 o k) = W (ix2 o k)) (hx2 : ∀ o : Fin 256, x2 (ix1 o) = B (ix1 o)) :
    linBlk x0 x1 x2 y = linArr X W B i := by
  have e2 : (i 2 : Fin 256) = (y 2 : Fin 256) := Fin.ext ho
  show linEntry (fun k => x0 (ix3 (y 0 : Fin 8) (y 1 : Fin 256) k)) (fun k => x1 (ix2 (y 2 : Fin 256) k))
      (x2 (ix1 (y 2 : Fin 256)))
    = linEntry (fun k => X (ix3 (i 0 : Fin 8) (i 1 : Fin 4096) k)) (fun k => W (ix2 (i 2 : Fin 256) k))
      (B (ix1 (i 2 : Fin 256)))
  rw [e2, funext hx0, funext (hx1 (y 2 : Fin 256))]
  exact congrArg (linEntry _ _) (hx2 (y 2 : Fin 256))

variable (V : (c : Dev nD) → (b : Ref sig .tc) → Buf (Elt Ideal) ((c : Thread nD τ).loc b))

/-- What point `t` writes back is block `t` of the projection of the arrays as the region finds them. -/
theorem written_back_eq (c : Dev nD) (t : Fin cfg0.N) :
    (dat0 (F := Ideal) V c).flushed 3 t
      = ((cfg0.win 3).blk t).view.read (Elt Ideal) (linArr (V c main_arg0) (V c main_arg1) (V c main_arg2)) := by
  show (cfg0.win 3).cut (grid0.coords t) ((dat0 V c).after 3 t) = _
  rw [after0_3, out_block]
  obtain ⟨a0, a1, a2, b0, b1, b2, w0, w1, s0⟩ := block_rows t
  funext j
  show linBlk (iblk0 V c 0 t) (iblk0 V c 1 t) (iblk0 V c 2 t) j
    = linArr (V c main_arg0) (V c main_arg1) (V c main_arg2) (((cfg0.win 3).blk t).view.emb j)
  refine block_entry_eq (V c main_arg0) (V c main_arg1) (V c main_arg2) _ _ _ j _ ?_ ?_ ?_ ?_
  · show win0_3.index t (2 : Fin 3) * 256 + 1 * (j 2).val = (j 2).val
    omega
  · intro k
    show V c main_arg0 (((cfg0.win 0).blk t).view.emb (ix3 (j 0 : Fin 8) (j 1 : Fin 256) k)) = _
    refine congrArg (V c main_arg0) ?_
    funext a; apply Fin.ext
    match a with
    | ⟨0, _⟩ => show win0_0.index t (0 : Fin 3) * 8 + 1 * (j 0).val = win0_3.index t (0 : Fin 3) * 8 + 1 * (j 0).val; omega
    | ⟨1, _⟩ => show win0_0.index t (1 : Fin 3) * 256 + 1 * (j 1).val = win0_3.index t (1 : Fin 3) * 256 + 1 * (j 1).val; omega
    | ⟨2, _⟩ => show win0_0.index t (2 : Fin 3) * 256 + 1 * k.val = k.val; omega
  · intro o k
    show V c main_arg1 (((cfg0.win 1).blk t).view.emb (ix2 o k)) = _
    refine congrArg (V c main_arg1) ?_
    funext a; apply Fin.ext
    match a with
    | ⟨0, _⟩ => show win0_1.index t (0 : Fin 2) * 256 + 1 * o.val = o.val; omega
    | ⟨1, _⟩ => show win0_1.index t (1 : Fin 2) * 256 + 1 * k.val = k.val; omega
  · intro o
    show V c main_arg2 (((cfg0.win 2).blk t).view.emb (ix1 o)) = _
    refine congrArg (V c main_arg2) ?_
    funext a; apply Fin.ext
    match a with
    | ⟨0, _⟩ => show win0_2.index t (0 : Fin 1) * 256 + 1 * o.val = o.val; omega

/-- An index of the array is in point `t`'s block iff each coordinate is in the block's range on its axis. -/
theorem mem_row_block (t : Fin cfg0.N) (i : S8x4096x256.Idx) :
    i ∈ ((cfg0.win 3).blk t).view.set
      ↔ ∀ a : Fin 3, win0_3.index t a * S8x256x256.size a ≤ (i a).val
          ∧ (i a).val < win0_3.index t a * S8x256x256.size a + S8x256x256.size a := by
  show i ∈ ((View.whole main_v0).slice (win0_3.rect t)).set ↔ _
  rw [View.set_slice_whole, Rect.mem_set_unit]
  exact Iff.rfl

/-- Every entry of the array is in some point's block: node row `n` is in the block of point `n / 256`. -/
theorem row_covered (i : S8x4096x256.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 256 := (i 2).isLt
  have hN : cfg0.N = 16 := N_0
  obtain ⟨t, ht⟩ : ∃ t : Fin cfg0.N, t.val = (i 1).val / 256 := ⟨⟨(i 1).val / 256, by rw [hN]; omega⟩, rfl⟩
  obtain ⟨-, -, -, b0, b1, b2, -, -, -⟩ := block_rows t
  refine ⟨t, flush0_3 t, ?_⟩
  rw [mem_row_block]
  intro a
  match a with
  | ⟨0, _⟩ =>
    show win0_3.index t (0 : Fin 3) * 8 ≤ (i 0).val ∧ (i 0).val < win0_3.index t (0 : Fin 3) * 8 + 8
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 256 ≤ (i 2).val ∧ (i 2).val < win0_3.index t (2 : Fin 3) * 256 + 256
    omega

theorem region0_value (c : Dev nD) :
    (dat0 (F := Ideal) V c).arrAt 3 cfg0.N = linArr (V c main_arg0) (V c main_arg1) (V c main_arg2) :=
  (dat0 V c).arrAt_eq_of_cover 3 (linArr (V c main_arg0) (V c main_arg1) (V c main_arg2))
    (fun t _ => written_back_eq V c t) row_covered

end Cert.KernelIdeal.Region0

end
-- ==== Proof.PayLN.lean ====
/-
  The second kernel's arithmetic, read at one entry of its block.

  At row `(b, r)` and lane `o` the body mixes the projected row with the weighted aggregate, takes the mean of the
  mixed row by a sum along the lanes divided by 256, centres the row, takes the mean of the squared centred entries
  the same way, multiplies by the reciprocal square root of that variance plus the offset, scales by `γ o`, shifts by
  `β o`, clips below at zero and multiplies by the row's mask read as a number.  Every row statistic is kept with a
  trailing unit axis and broadcast back along the lanes, so reading the body at `(b, r, o)` needs the four layout
  operations of that bookkeeping at coordinates and the lane sum as a sum over `Fin 256`; with those the body at the
  entry is, term for term, `lnRow` of the two rows, the two parameter vectors and the mask.
-/
import proofs.«141187_j70334384439537_1_alg».proof.Proof.Gen.KernelIdeal.Skeleton
import proofs.«141187_j70334384439537_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayLN

open Cert.KernelIdeal Cert.KernelIdeal.Gen Cert.Spec Idealize.ShloMosaic Idealize.ShloMosaic.ValueIdx

/-! ## Layout operations of a row statistic, read at coordinates -/

section Keepdims
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a]` array cast to `[1, 1, a]` reads, at `(u, w, i)`, the operand at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add, Nat.mul_one, Nat.add_zero])

/-- A `[1, 1, c]` array broadcast to `[a, b, c]` reads, at `(i, j, k)`, the operand's one row at `k`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Keepdims

/-! ## A sum along the last axis, read at coordinates -/

/-- The sum of an `[a, b, c]` array along its last axis, started from the zero word, reads, at `(i, j)`, the sum over `k`
    of the array at `(i, j, k)`. -/
theorem laneSum_apply {a b c : ℕ} (src : FVec Ideal ⟨3, ![a, b, c]⟩ .f32)
    (h : (⟨3, ![a, b, c]⟩ : Shape).Reduces ([2] : List (Fin 3)) ⟨2, ![a, b]⟩) (hφ : FKind.Formats .f32)
    (hacc : (0x00000000#32 : BitVec 32) = 0x00000000#32) (i : Fin a) (j : Fin b) :
    multiReduction (F := Ideal) .add ([2] : List (Fin 3)) ⟨2, ![a, b]⟩ src 0x00000000#32 h hφ hacc (ix2 i j)
      = ∑ k : Fin c, src (ix3 i j k) := by
  refine (Ideal.multiReduction_add_single src 0x00000000#32 h hφ hacc (ix2 i j)).trans ?_
  refine Finset.sum_congr rfl fun k _ => congrArg src ?_
  funext ax
  refine Fin.ext ?_
  match ax with
  | ⟨0, _⟩ => rfl
  | ⟨1, _⟩ => rfl
  | ⟨2, _⟩ => rfl

/-! ## Two elementwise operations at an index -/

/-- The reciprocal square root of a vector reads, at an index, that of the element. -/
theorem rsqrt_apply {s : Shape} (x : FVec Ideal s .f32) (i : s.Idx) : rsqrt x i = Ideal.rsqrt (x i) := rfl

/-- A signed integer converted to a float is, on the extended reals, the integer itself. -/
theorem sitofp_ideal_apply {s : Shape} (x : IVec s 32) (i : s.Idx) :
    (sitofp .f32 x : FVec Ideal s .f32) i = (((x i).toInt : ℝ) : EReal) := rfl

/-! ## The body at an entry -/

/-- Region 1's stored value at `(b, r, o)` is the layer's output entry `o` for the rows `(b, r, ·)` of its two inputs. -/
theorem pay_ln (x0 x1 : Vec Ideal S8x256x256 .f32) (x2 x3 : Vec Ideal S256 .f32) (x4 : Vec Ideal S8x256 .i32)
    (b : Fin 8) (r o : Fin 256) :
    k1_pay1 (F := Ideal) x0 x1 x2 x3 x4 (ix3 b r o)
      = lnRow (fun k => x0 (ix3 b r k)) (fun k => x1 (ix3 b r k)) (fun k => x2 (ix1 k)) (fun k => x3 (ix1 k))
          (((x4 (ix2 b r)).toInt : ℝ) : EReal) o := by
  unfold k1_pay1
  dsimp only
  simp only [shapeCast_self, mulf_apply, addf_apply, subf_apply, divf_apply, maximumf_apply, broadcast_apply,
    rsqrt_apply, sitofp_ideal_apply, broadcastTo_ab1_abc_apply, broadcastTo_11c_abc_apply, shapeCast_ab_ab1_apply,
    shapeCast_a_11a_apply, laneSum_apply, Ideal.ofBits_def]
  unfold lnRow rowVar centred rowMean mixed aggScale rowLen varEps floorZero
  rfl

end Cert.KernelIdeal.PayLN

end
-- ==== Proof.Region1.lean ====
/-
  From the second kernel's blocks to its whole output array.

  The region runs over 16 grid points; point `t` reads rows `256·t … 256·t + 255` of the node axis of the projected
  features, of the aggregate and of the mask, reads the two parameter vectors whole, and writes the same rows of the
  output.  A block's entry `(b, r, o)` therefore sits at `(b, 256·t + r, o)` of its array: block index times block
  size plus the coordinate inside the block, on every axis.  With the body read at an entry (`pay_ln`) this makes what
  point `t` writes back block `t` of one array, the layer's output `lnArr` of the five arrays the region finds; the 16
  blocks cover the output array (node `n` lies in block `n / 256`), so the array ends holding `lnArr`.  Nothing is
  assumed of the arrays' contents.
-/
import proofs.«141187_j70334384439537_1_alg».proof.Proof.Gen.KernelIdeal.Frame
import proofs.«141187_j70334384439537_1_alg».proof.Proof.PayLN
import proofs.«141187_j70334384439537_1_alg».proof.Proof.Spec
import Idealize.ShloMosaic.Lib.ValueIdx
import Idealize.ShloMosaic.Lib.Pipeline.Value

set_option maxRecDepth 16384

noncomputable section

open scoped BigOperators

namespace Cert.KernelIdeal.Region1

open Cert.KernelIdeal Cert.KernelIdeal.Gen Cert.Spec Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Zero offsets, and the block index of every window at every grid point -/

/-- The zero offsets of a whole rank-3 buffer. -/
theorem hz3 : (![0, 0, 0] : Fin 3 → Nat) = fun _ => 0 := funext fun a => by fin_cases a <;> rfl
/-- The zero offsets of a whole rank-2 buffer. -/
theorem hz2 : (![0, 0] : Fin 2 → Nat) = fun _ => 0 := funext fun a => by fin_cases a <;> rfl
/-- The zero offset of a whole rank-1 buffer. -/
theorem hz1 : (![0] : Fin 1 → Nat) = fun _ => 0 := funext fun a => by fin_cases a <;> rfl

/-- At grid point `t` the three `[8, 256, 256]` windows and the mask's `[8, 256]` window sit at block `t` of the node
    axis and at block `0` of every other axis; the two parameter vectors are one block. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 1) = 0
    ∧ win1_3.index t (0 : Fin 1) = 0
    ∧ win1_4.index t (0 : Fin 2) = 0 ∧ win1_4.index t (1 : Fin 2) = t.val
    ∧ win1_5.index t (0 : Fin 3) = 0 ∧ win1_5.index t (1 : Fin 3) = t.val ∧ win1_5.index t (2 : Fin 3) = 0 :=
  (by decide +kernel : ∀ t : Fin grid1.N, _)

/-! ## One grid point, over the literal block and array types -/

/-- The layer's output array at an index is `lnRow` of the rows through that index. -/
theorem lnArr_apply (h a : S8x4096x256.Idx → EReal) (g be : S256.Idx → EReal) (nm : S8x4096.Idx → BitVec 32)
    (i : S8x4096x256.Idx) :
    lnArr h a g be nm i
      = lnRow (fun k => h (ix3 (i 0 : Fin 8) (i 1 : Fin 4096) k)) (fun k => a (ix3 (i 0 : Fin 8) (i 1 : Fin 4096) k))
          (fun k => g (ix1 k)) (fun k => be (ix1 k))
          (((nm (ix2 (i 0 : Fin 8) (i 1 : Fin 4096))).toInt : ℝ) : EReal) (i 2 : Fin 256) := rfl

/-- If the five blocks the body reads are the arrays `h`, `a`, `g`, `be`, `nm` read at rows `n · 256 + r` of the node
    axis (`e0` … `e4`: where each block's entry sits in its array), then what the body stores at entry `j` of its output
    block is the layer's output at the place `e5 j` of that entry in the output array. -/
theorem point_value (n : ℕ) (h a : S8x4096x256.Idx → EReal) (g be : S256.Idx → EReal) (nm : S8x4096.Idx → BitVec 32)
    (x0 x1 : Vec Ideal S8x256x256 .f32) (x2 x3 : Vec Ideal S256 .f32) (x4 : Vec Ideal S8x256 .i32)
    (e0 e1 e5 : S8x256x256.Idx → S8x4096x256.Idx) (e2 e3 : S256.Idx → S256.Idx) (e4 : S8x256.Idx → S8x4096.Idx)
    (hx0 : ∀ y, x0 y = h (e0 y)) (hx1 : ∀ y, x1 y = a (e1 y)) (hx2 : ∀ y, x2 y = g (e2 y))
    (hx3 : ∀ y, x3 y = be (e3 y)) (hx4 : ∀ y, x4 y = nm (e4 y))
    (c0 : ∀ y, (e0 y 0).val = (y 0).val ∧ (e0 y 1).val = n * 256 + (y 1).val ∧ (e0 y 2).val = (y 2).val)
    (c1 : ∀ y, (e1 y 0).val = (y 0).val ∧ (e1 y 1).val = n * 256 + (y 1).val ∧ (e1 y 2).val = (y 2).val)
    (c2 : ∀ y, (e2 y 0).val = (y 0).val) (c3 : ∀ y, (e3 y 0).val = (y 0).val)
    (c4 : ∀ y, (e4 y 0).val = (y 0).val ∧ (e4 y 1).val = n * 256 + (y 1).val)
    (c5 : ∀ y, (e5 y 0).val = (y 0).val ∧ (e5 y 1).val = n * 256 + (y 1).val ∧ (e5 y 2).val = (y 2).val)
    (j : S8x256x256.Idx) :
    k1_pay1 (F := Ideal) x0 x1 x2 x3 x4 j = lnArr h a g be nm (e5 j) := by
  obtain ⟨b, r, o, rfl⟩ : ∃ (b : Fin 8) (r o : Fin 256), j = ix3 b r o := ⟨j 0, j 1, j 2, eq_ix3 j⟩
  rw [PayLN.pay_ln, lnArr_apply]
  -- the two feature rows
  have f0 : (fun k : Fin 256 => x0 (ix3 b r k))
      = fun k => h (ix3 (e5 (ix3 b r o) 0 : Fin 8) (e5 (ix3 b r o) 1 : Fin 4096) k) :=
    funext fun k => (hx0 _).trans (congrArg h (funext fun ax => Fin.ext (by
      match ax with
      | ⟨0, _⟩ => exact ((c0 (ix3 b r k)).1).trans ((c5 (ix3 b r o)).1).symm
      | ⟨1, _⟩ => exact ((c0 (ix3 b r k)).2.1).trans ((c5 (ix3 b r o)).2.1).symm
      | ⟨2, _⟩ => exact (c0 (ix3 b r k)).2.2)))
  have f1 : (fun k : Fin 256 => x1 (ix3 b r k))
      = fun k => a (ix3 (e5 (ix3 b r o) 0 : Fin 8) (e5 (ix3 b r o) 1 : Fin 4096) k) :=
    funext fun k => (hx1 _).trans (congrArg a (funext fun ax => Fin.ext (by
      match ax with
      | ⟨0, _⟩ => exact ((c1 (ix3 b r k)).1).trans ((c5 (ix3 b r o)).1).symm
      | ⟨1, _⟩ => exact ((c1 (ix3 b r k)).2.1).trans ((c5 (ix3 b r o)).2.1).symm
      | ⟨2, _⟩ => exact (c1 (ix3 b r k)).2.2)))
  -- the two parameter vectors
  have f2 : (fun k : Fin 256 => x2 (ix1 k)) = fun k => g (ix1 k) :=
    funext fun k => (hx2 _).trans (congrArg g (funext fun ax => Fin.ext (by
      match ax with
      | ⟨0, _⟩ => exact c2 (ix1 k))))
  have f3 : (fun k : Fin 256 => x3 (ix1 k)) = fun k => be (ix1 k) :=
    funext fun k => (hx3 _).trans (congrArg be (funext fun ax => Fin.ext (by
      match ax with
      | ⟨0, _⟩ => exact c3 (ix1 k))))
  -- the row's mask
  have f4 : x4 (ix2 b r) = nm (ix2 (e5 (ix3 b r o) 0 : Fin 8) (e5 (ix3 b r o) 1 : Fin 4096)) :=
    (hx4 _).trans (congrArg nm (funext fun ax => Fin.ext (by
      match ax with
      | ⟨0, _⟩ => exact ((c4 (ix2 b r)).1).trans ((c5 (ix3 b r o)).1).symm
      | ⟨1, _⟩ => exact ((c4 (ix2 b r)).2).trans ((c5 (ix3 b r o)).2.1).symm)))
  -- the lane
  have f5 : (e5 (ix3 b r o) 2 : Fin 256) = o := Fin.ext (c5 (ix3 b r o)).2.2
  rw [f0, f1, f2, f3, f4, f5]

/-! ## What each grid point writes back, and the blocks' cover of the output array -/

/-- What point `t` writes back is block `t` of the layer's output array built from the arrays the region finds. -/
theorem flushed_eq (c : Dev nD) (t : Fin cfg1.N) :
    (dat1 (F := Ideal) V c).flushed 5 t = ((cfg1.win 5).blk t).view.read (Elt Ideal)
      (lnArr (V c main_v0) (V c main_v25) (V c main_arg3) (V c main_arg4) (V c main_arg6)) := by
  show (cfg1.win 5).cut (grid1.coords t) ((dat1 (F := Ideal) V c).after 5 t) = _
  rw [after1_5]
  unfold out1_5
  rw [View.canon_unit_zero hz3]
  simp only [View.ld_unit_zero (S := S8x256x256) hz3, View.ld_unit_zero (S := S256) hz1, View.ld_unit_zero (S := S8x256) hz2]
  obtain ⟨a00, a01, a02, a10, a11, a12, a20, a30, a40, a41, a50, a51, a52⟩ := idx_facts t
  funext j
  refine point_value t.val (V c main_v0) (V c main_v25) (V c main_arg3) (V c main_arg4) (V c main_arg6)
    (iblk1 V c 0 t) (iblk1 V c 1 t) (iblk1 V c 2 t) (iblk1 V c 3 t) (iblk1 V c 4 t)
    ((cfg1.win 0).blk t).view.emb ((cfg1.win 1).blk t).view.emb ((cfg1.win 5).blk t).view.emb
    ((cfg1.win 2).blk t).view.emb ((cfg1.win 3).blk t).view.emb ((cfg1.win 4).blk t).view.emb
    (fun _ => rfl) (fun _ => rfl) (fun _ => rfl) (fun _ => rfl) (fun _ => rfl) ?_ ?_ ?_ ?_ ?_ ?_ j
  · intro y
    refine ⟨?_, ?_, ?_⟩
    · show win1_0.index t (0 : Fin 3) * 8 + 1 * (y 0).val = (y 0).val; omega
    · show win1_0.index t (1 : Fin 3) * 256 + 1 * (y 1).val = t.val * 256 + (y 1).val; omega
    · show win1_0.index t (2 : Fin 3) * 256 + 1 * (y 2).val = (y 2).val; omega
  · intro y
    refine ⟨?_, ?_, ?_⟩
    · show win1_1.index t (0 : Fin 3) * 8 + 1 * (y 0).val = (y 0).val; omega
    · show win1_1.index t (1 : Fin 3) * 256 + 1 * (y 1).val = t.val * 256 + (y 1).val; omega
    · show win1_1.index t (2 : Fin 3) * 256 + 1 * (y 2).val = (y 2).val; omega
  · intro y
    show win1_2.index t (0 : Fin 1) * 256 + 1 * (y 0).val = (y 0).val; omega
  · intro y
    show win1_3.index t (0 : Fin 1) * 256 + 1 * (y 0).val = (y 0).val; omega
  · intro y
    refine ⟨?_, ?_⟩
    · show win1_4.index t (0 : Fin 2) * 8 + 1 * (y 0).val = (y 0).val; omega
    · show win1_4.index t (1 : Fin 2) * 256 + 1 * (y 1).val = t.val * 256 + (y 1).val; omega
  · intro y
    refine ⟨?_, ?_, ?_⟩
    · show win1_5.index t (0 : Fin 3) * 8 + 1 * (y 0).val = (y 0).val; omega
    · show win1_5.index t (1 : Fin 3) * 256 + 1 * (y 1).val = t.val * 256 + (y 1).val; omega
    · show win1_5.index t (2 : Fin 3) * 256 + 1 * (y 2).val = (y 2).val; omega

/-- An index of the output array is in point `t`'s block iff each coordinate is in the block's range on its axis. -/
theorem mem_blk (t : Fin cfg1.N) (i : S8x4096x256.Idx) :
    i ∈ ((cfg1.win 5).blk t).view.set
      ↔ ∀ a : Fin 3, win1_5.index t a * S8x256x256.size a ≤ (i a).val
          ∧ (i a).val < win1_5.index t a * S8x256x256.size a + S8x256x256.size a := by
  show i ∈ ((View.whole main_v26).slice (win1_5.rect t)).set ↔ _
  rw [View.set_slice_whole, Rect.mem_set_unit]
  exact Iff.rfl

/-- Every index of the output array lies in the block of the point that holds its node: node `n` is in block `n / 256`. -/
theorem cover (i : S8x4096x256.Idx) :
    ∃ t : Fin cfg1.N, (cfg1.win 5).flush t = true ∧ i ∈ ((cfg1.win 5).blk t).view.set := by
  have hi0 : (i 0).val < 8 := (i 0).isLt
  have hi1 : (i 1).val < 4096 := (i 1).isLt
  have hi2 : (i 2).val < 256 := (i 2).isLt
  have hN : cfg1.N = 16 := N_1
  refine ⟨⟨(i 1).val / 256, by rw [hN]; omega⟩, flush1_5 _, ?_⟩
  obtain ⟨-, -, -, -, -, -, -, -, -, -, a50, a51, a52⟩ := idx_facts ⟨(i 1).val / 256, by rw [hN]; omega⟩
  rw [mem_blk]
  intro a
  match a with
  | ⟨0, _⟩ =>
    show win1_5.index _ (0 : Fin 3) * 8 ≤ (i 0).val ∧ (i 0).val < win1_5.index _ (0 : Fin 3) * 8 + 8
    rw [a50]; omega
  | ⟨1, _⟩ =>
    show win1_5.index _ (1 : Fin 3) * 256 ≤ (i 1).val ∧ (i 1).val < win1_5.index _ (1 : Fin 3) * 256 + 256
    rw [a51]; show (i 1).val / 256 * 256 ≤ (i 1).val ∧ (i 1).val < (i 1).val / 256 * 256 + 256; omega
  | ⟨2, _⟩ =>
    show win1_5.index _ (2 : Fin 3) * 256 ≤ (i 2).val ∧ (i 2).val < win1_5.index _ (2 : Fin 3) * 256 + 256
    rw [a52]; omega

/-! ## The region's output array -/

/-- After region 1 its output array holds the layer's output built from the five arrays the region finds. -/
theorem region1_value (c : Dev nD) :
    (dat1 (F := Ideal) V c).arrAt 5 cfg1.N
      = lnArr (V c main_v0) (V c main_v25) (V c main_arg3) (V c main_arg4) (V c main_arg6) := by
  exact (dat1 (F := Ideal) V c).arrAt_eq_of_cover 5
    (lnArr (V c main_v0) (V c main_v25) (V c main_arg3) (V c main_arg4) (V c main_arg6))
    (fun t _ => flushed_eq V c t) cover

end Cert.KernelIdeal.Region1

end
-- ==== Proof.RefTail.lean ====
/-
  The reference program's last stretch, read one output entry at a time.

  Two facts.  The projected feature at `(b, n, o)` is the inner product of feature row `(b, n, ·)` with weight row
  `(o, ·)`, plus `bias o`.  The program's result at `(b, n, o)` is entry `o` of the normalised row built from the
  projected features' row `(b, n, ·)` and the aggregate's row `(b, n, ·)`, masked by node `(b, n)`'s mask read as a number.

  Each operation of the program reads its operands at an index computed from its own; at `(b, n, o)` these indices are
  the constructors `(b, n, k)`, `(b, n, 0)`, `(b, n)`, `(o, k)` and `(o)`, which the small lemmas below record.  The
  reference spells the layer in two places otherwise than the specification: each row sum starts from the float word of
  zero, which is `0`; and the aggregate is divided by `√4096` where the specification multiplies by `2⁻⁶`.
-/
import proofs.«141187_j70334384439537_1_alg».proof.Proof.RefReadP
import proofs.«141187_j70334384439537_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefTail

open Cert.ReferenceIdeal Cert.ReferenceIdeal.ReadP Cert.Spec Idealize.ShloMosaic Idealize.ShloMosaic.ValueIdx

/-! ## The projection -/

/-- The left operand of the contraction, read at entry `(b, n, o)` and summand `k`, is feature `(b, n, k)`. -/
theorem lidx_v0_at (b : Fin 8) (n : Fin 4096) (o k : Fin 256) : lidx_main_v0 (ix3 b n o) k = ix3 b n k :=
  funext fun a => Fin.ext (by match a with | ⟨0, _⟩ => rfl | ⟨1, _⟩ => rfl | ⟨2, _⟩ => rfl)

/-- The right operand of the contraction, read at entry `(b, n, o)` and summand `k`, is weight `(o, k)`. -/
theorem ridx_v0_at (b : Fin 8) (n : Fin 4096) (o k : Fin 256) : ridx_main_v0 (ix3 b n o) k = ix2 o k :=
  funext fun a => Fin.ext (by match a with | ⟨0, _⟩ => rfl | ⟨1, _⟩ => rfl)

/-- The bias, broadcast along batch and node, is read at `o`. -/
theorem idx_v1_v2_at (b : Fin 8) (n : Fin 4096) (o : Fin 256) : idx_main_v1 (idx_main_v2 (ix3 b n o)) = ix1 o :=
  funext fun a => Fin.ext (by match a with | ⟨0, _⟩ => rfl)

/-- The projection at `(b, n, o)`: the contraction is the sum over `k` of feature `(b, n, k)` times weight `(o, k)`, and the
    broadcast bias is read at `o`. -/
theorem ref_lin (x0 : (⟨S8x4096x256, .f32⟩ : BufTy).Contents (Elt Ideal)) (x1 : (⟨S256x256, .f32⟩ : BufTy).Contents (Elt Ideal))
    (x2 : (⟨S256, .f32⟩ : BufTy).Contents (Elt Ideal)) (b : Fin 8) (n : Fin 4096) (o : Fin 256) :
    val_main_v3 (F := Ideal) x0 x1 x2 (ix3 b n o)
      = linEntry (fun k => x0 (ix3 b n k)) (fun k => x1 (ix2 o k)) (x2 (ix1 o)) := by
  rw [val_main_v3_apply, val_main_v0_apply, val_main_v2_apply, val_main_v1_apply]
  simp only [lidx_v0_at, ridx_v0_at, idx_v1_v2_at, Ideal.addf_def]
  rfl

/-! ## The normalised, clipped, masked row -/

/-- The mean, broadcast along the row for the centred entry, is read at `(b, n, 0)`. -/
theorem idx_col_at (b : Fin 8) (n : Fin 4096) (o : Fin 256) :
    idx_main_v44 (ix3 b n o) = ix3 b n (0 : Fin 1) :=
  funext fun a => Fin.ext (by match a with | ⟨0, _⟩ => rfl | ⟨1, _⟩ => rfl | ⟨2, _⟩ => rfl)
/-- The mean, broadcast along the row for the squared deviations, is read at `(b, n, 0)`. -/
theorem idx_col37_at (b : Fin 8) (n : Fin 4096) (o : Fin 256) :
    idx_main_v37 (ix3 b n o) = ix3 b n (0 : Fin 1) :=
  funext fun a => Fin.ext (by match a with | ⟨0, _⟩ => rfl | ⟨1, _⟩ => rfl | ⟨2, _⟩ => rfl)
/-- The reciprocal root, broadcast along the row, is read at `(b, n, 0)`. -/
theorem idx_col49_at (b : Fin 8) (n : Fin 4096) (o : Fin 256) :
    idx_main_v49 (ix3 b n o) = ix3 b n (0 : Fin 1) :=
  funext fun a => Fin.ext (by match a with | ⟨0, _⟩ => rfl | ⟨1, _⟩ => rfl | ⟨2, _⟩ => rfl)
/-- The mask, broadcast along the row, is read at `(b, n, 0)`. -/
theorem idx_col59_at (b : Fin 8) (n : Fin 4096) (o : Fin 256) :
    idx_main_v59 (ix3 b n o) = ix3 b n (0 : Fin 1) :=
  funext fun a => Fin.ext (by match a with | ⟨0, _⟩ => rfl | ⟨1, _⟩ => rfl | ⟨2, _⟩ => rfl)
/-- The row sum, given a unit last axis, is read at `(b, n)`. -/
theorem idx_row34_at (b : Fin 8) (n : Fin 4096) : idx_main_v34 (ix3 b n (0 : Fin 1)) = ix2 b n :=
  funext fun a => Fin.ext (by match a with | ⟨0, _⟩ => rfl | ⟨1, _⟩ => rfl)
/-- The sum of squared deviations, given a unit last axis, is read at `(b, n)`. -/
theorem idx_row41_at (b : Fin 8) (n : Fin 4096) : idx_main_v41 (ix3 b n (0 : Fin 1)) = ix2 b n :=
  funext fun a => Fin.ext (by match a with | ⟨0, _⟩ => rfl | ⟨1, _⟩ => rfl)
/-- The converted mask, given a unit last axis, is read at `(b, n)`. -/
theorem idx_row58_at (b : Fin 8) (n : Fin 4096) : idx_main_v58 (ix3 b n (0 : Fin 1)) = ix2 b n :=
  funext fun a => Fin.ext (by match a with | ⟨0, _⟩ => rfl | ⟨1, _⟩ => rfl)
/-- Summand `k` of the row sum at `(b, n)` is the mixed entry `(b, n, k)`. -/
theorem idx_sum33_at (b : Fin 8) (n : Fin 4096) (k : Fin 256) : idx_main_v33 (ix2 b n) k = ix3 b n k :=
  funext fun a => Fin.ext (by match a with | ⟨0, _⟩ => rfl | ⟨1, _⟩ => rfl | ⟨2, _⟩ => rfl)
/-- Summand `k` of the sum of squares at `(b, n)` is the squared deviation at `(b, n, k)`. -/
theorem idx_sum40_at (b : Fin 8) (n : Fin 4096) (k : Fin 256) : idx_main_v40 (ix2 b n) k = ix3 b n k :=
  funext fun a => Fin.ext (by match a with | ⟨0, _⟩ => rfl | ⟨1, _⟩ => rfl | ⟨2, _⟩ => rfl)
/-- The scale `γ`, broadcast along batch and node, is read at `o`. -/
theorem idx_g_at (b : Fin 8) (n : Fin 4096) (o : Fin 256) : idx_main_v51 (idx_main_v52 (ix3 b n o)) = ix1 o :=
  funext fun a => Fin.ext (by match a with | ⟨0, _⟩ => rfl)
/-- The shift `β`, broadcast along batch and node, is read at `o`. -/
theorem idx_be_at (b : Fin 8) (n : Fin 4096) (o : Fin 256) : idx_main_v54 (idx_main_v55 (ix3 b n o)) = ix1 o :=
  funext fun a => Fin.ext (by match a with | ⟨0, _⟩ => rfl)

/-- At the ideal values an integer converted to a float is the integer itself, read signed. -/
theorem sitofp_ideal {w : Nat} (v : BitVec w) : FloatOps.sitofp (F := Ideal) .f32 v = ((v.toInt : ℝ) : EReal) := rfl

/-- The reference's result at `(b, n, o)`: every stage from the result down to the mixed row is read at its index, the
    indices are identified, the float operations become the extended reals' own, the two row sums lose their zero word,
    and the division by `√4096` becomes the product with `2⁻⁶`; what is left is the specification's row, term for term. -/
theorem ref_tail (x0 : (⟨S8x4096x256, .f32⟩ : BufTy).Contents (Elt Ideal)) (x1 : (⟨S256x256, .f32⟩ : BufTy).Contents (Elt Ideal))
    (x2 x3 x4 : (⟨S256, .f32⟩ : BufTy).Contents (Elt Ideal)) (x5 : (⟨S8x2x65536, .i32⟩ : BufTy).Contents (Elt Ideal))
    (x6 : (⟨S8x4096, .i32⟩ : BufTy).Contents (Elt Ideal)) (b : Fin 8) (n : Fin 4096) (o : Fin 256) :
    val_main_v60 (F := Ideal) x0 x1 x2 x3 x4 x5 x6 (ix3 b n o)
      = lnRow (fun k => val_main_v3 (F := Ideal) x0 x1 x2 (ix3 b n k))
          (fun k => val_main_v28 (F := Ideal) x0 x1 x2 x5 x6 (ix3 b n k))
          (fun k => x3 (ix1 k)) (fun k => x4 (ix1 k)) (((x6 (ix2 b n)).toInt : ℝ) : EReal) o := by
  simp only [val_main_v60_apply, val_main_v57_apply, val_main_v56_apply, val_main_v53_apply, val_main_v50_apply,
    val_main_v45_apply, val_main_v44_apply, val_main_v49_apply, val_main_v48_apply, val_main_v47_apply, val_main_v43_apply,
    val_main_v41_apply, val_main_v40_apply, val_main_v39_apply, val_main_v38_apply, val_main_v37_apply, val_main_v36_apply,
    val_main_v34_apply, val_main_v33_apply, val_main_v32_apply, val_main_v31_apply, val_main_v30_apply, val_main_v29_apply,
    val_main_cst_0_apply, val_main_cst_1_apply, val_main_cst_2_apply, val_main_cst_3_apply, val_main_cst_4_apply, val_main_cst_5_apply,
    val_main_v35_apply, val_main_v42_apply, val_main_v46_apply, val_main_v52_apply, val_main_v51_apply, val_main_v55_apply,
    val_main_v54_apply, val_main_call3_v0_apply, val_main_call3_cst_apply, val_main_v59_apply, val_main_v58_apply, val_main_v8_apply]
  simp only [idx_col_at, idx_col37_at, idx_col49_at, idx_col59_at, idx_row34_at, idx_row41_at, idx_row58_at, idx_sum33_at,
    idx_sum40_at, idx_g_at, idx_be_at, Ideal.addf_def, Ideal.mulf_def, Ideal.subf_def, Ideal.hostDivf_def, Ideal.maximumf_def,
    Ideal.hostUnary_rsqrt_def, Ideal.hostUnary_sqrt_def, Ideal.ofBits_def, sitofp_ideal, div_sqrt_4096, Ideal.ofBits_zero_f32, zero_add,
    lnRow, centred, rowVar, rowMean, mixed, rowLen, varEps, floorZero]

end Cert.ReferenceIdeal.RefTail

end
-- ==== Proof.RefValue.lean ====
/-
  The reference's result as one function of its arguments.

  Between the projected features `h` and the aggregate only six operations read `h`: the gather of source rows, the
  select that blanks out-of-range gathers, the product with the edge mask, a reshape, the scatter-add over target
  nodes and a last reshape; everything else on that road (index arithmetic, edge masks, the zero array the sums start
  from) is a function of the two integer inputs alone.  `aggOf` is that road with `h` a variable, so that both programs'
  aggregates are `aggOf` of their own projected features.  With it the reference's result is the normalised, masked
  row function `lnArr` of the projection `linArr` and of `aggOf` of that projection.
-/
import proofs.«141187_j70334384439537_1_alg».proof.Proof.RefTail

noncomputable section

open scoped BigOperators

namespace Cert.ReferenceIdeal.RefValue

open Cert.ReferenceIdeal Cert.ReferenceIdeal.Gen Cert.ReferenceIdeal.ReadP Cert.Spec Idealize.ShloMosaic Idealize.ShloMosaic.ValueIdx

section Glue

variable {F : FTy → Type} [FloatOps F]

/-- The messages summed into every node, as a function of the projected features `h`, the edge list `x5` and the node
    mask `x6`: source rows gathered (blanked where the index is out of range), times the edge mask, scatter-added at the
    target nodes into zeros. -/
def aggOf (h : (⟨S8x4096x256, .f32⟩ : BufTy).Contents (Elt F)) (x5 : (⟨S8x2x65536, .i32⟩ : BufTy).Contents (Elt F))
    (x6 : (⟨S8x4096, .i32⟩ : BufTy).Contents (Elt F)) : (⟨S8x4096x256, .f32⟩ : BufTy).Contents (Elt F) :=
  shapeCast _ (Host.scatterAdd scatter_S32768x256_S524288x1_S524288x256_1_0_0_1 (val_main_v25 (F := F)) (val_main_v26 (F := F) x5)
    (shapeCast _ (mulf (select (val_main_call2_v13 (F := F) x5)
        (Host.gather gather_S8x4096x256_S8x65536x1_S8x65536x256_2_1_0_0_1_2_11256 h (val_main_call2_v4 (F := F) x5))
        (val_main_call2_v14 (F := F))) (val_main_v15 (F := F) x5 x6)) shapeCasts_S8x65536x256_S524288x256))
    shapeCasts_S32768x256_S8x4096x256

/-- The reference's aggregate is `aggOf` of its projected features. -/
theorem agg_ref (x0 : (⟨S8x4096x256, .f32⟩ : BufTy).Contents (Elt F)) (x1 : (⟨S256x256, .f32⟩ : BufTy).Contents (Elt F))
    (x2 : (⟨S256, .f32⟩ : BufTy).Contents (Elt F)) (x5 : (⟨S8x2x65536, .i32⟩ : BufTy).Contents (Elt F))
    (x6 : (⟨S8x4096, .i32⟩ : BufTy).Contents (Elt F)) :
    val_main_v28 (F := F) x0 x1 x2 x5 x6 = aggOf (val_main_v3 (F := F) x0 x1 x2) x5 x6 := rfl

end Glue

/-- The reference's projected features are `linArr` of the first three arguments. -/
theorem lin_ref (x0 : (⟨S8x4096x256, .f32⟩ : BufTy).Contents (Elt Ideal)) (x1 : (⟨S256x256, .f32⟩ : BufTy).Contents (Elt Ideal))
    (x2 : (⟨S256, .f32⟩ : BufTy).Contents (Elt Ideal)) :
    val_main_v3 (F := Ideal) x0 x1 x2 = linArr x0 x1 x2 := by
  funext i
  obtain ⟨b, n, o, rfl⟩ : ∃ (b : Fin 8) (n : Fin 4096) (o : Fin 256), i = ix3 b n o := ⟨i 0, i 1, i 2, eq_ix3 i⟩
  exact RefTail.ref_lin x0 x1 x2 b n o

/-- The reference's result: the layer's row function of the projection and of the aggregate of that projection. -/
theorem ref_value (x0 : (⟨S8x4096x256, .f32⟩ : BufTy).Contents (Elt Ideal)) (x1 : (⟨S256x256, .f32⟩ : BufTy).Contents (Elt Ideal))
    (x2 x3 x4 : (⟨S256, .f32⟩ : BufTy).Contents (Elt Ideal)) (x5 : (⟨S8x2x65536, .i32⟩ : BufTy).Contents (Elt Ideal))
    (x6 : (⟨S8x4096, .i32⟩ : BufTy).Contents (Elt Ideal)) :
    val_main_v60 (F := Ideal) x0 x1 x2 x3 x4 x5 x6
      = lnArr (linArr x0 x1 x2) (aggOf (F := Ideal) (linArr x0 x1 x2) x5 x6) x3 x4 x6 := by
  funext i
  obtain ⟨b, n, o, rfl⟩ : ∃ (b : Fin 8) (n : Fin 4096) (o : Fin 256), i = ix3 b n o := ⟨i 0, i 1, i 2, eq_ix3 i⟩
  rw [RefTail.ref_tail, agg_ref, lin_ref]
  rfl

end Cert.ReferenceIdeal.RefValue

end
-- ==== Proof.Host.lean ====
/-
  The kernel program between its two launches.

  After the first launch the projected features sit in one array; the host operations that follow never write it, nor
  any argument, and compute the aggregate from it and the two integer inputs by the same gather, mask, scatter-add
  road as the reference: `aggOf`.  So at the second launch's entry the features are still what the first launch left,
  the aggregate is `aggOf` of them, and scale, shift and mask are the launch contents.
-/
import proofs.«141187_j70334384439537_1_alg».proof.Proof.Gen.KernelIdeal.Frame
import proofs.«141187_j70334384439537_1_alg».proof.Proof.RefValue
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The edge list is not an array of the first launch: it leaves it as launched. -/
theorem W1_arg5 (c : Dev nD) : W1 m ρ c (Proc.devRef .tc main_arg5) = m ((c : Thread nD τ).loc main_arg5) :=
  W1_of_ne m ρ c main_arg5 (by decide)

/-- The node mask is not an array of the first launch: it leaves it as launched. -/
theorem W1_arg6 (c : Dev nD) : W1 m ρ c (Proc.devRef .tc main_arg6) = m ((c : Thread nD τ).loc main_arg6) :=
  W1_of_ne m ρ c main_arg6 (by decide)

set_option maxHeartbeats 4000000 in
/-- No host operation between the launches writes the projected features. -/
theorem W7_h (c : Dev nD) : W7 m ρ c (Proc.devRef .tc main_v0) = W1 m ρ c (Proc.devRef .tc main_v0) := by
  show StableHlo.after hostOps1_5 (StableHlo.after hostOps1_4 (StableHlo.after hostOps1_3 (StableHlo.after hostOps1_2 (StableHlo.after hostOps1_1 (StableHlo.after hostOps1 (W1 m ρ c)))))) _ = _
  after_results_simp

set_option maxHeartbeats 8000000 in
/-- The aggregate the second launch reads is `aggOf` of the projected features and the two integer inputs. -/
theorem W7_agg (c : Dev nD) :
    W7 m ρ c (Proc.devRef .tc main_v25)
      = Cert.ReferenceIdeal.RefValue.aggOf (F := F) (W1 m ρ c (Proc.devRef .tc main_v0)) (W1 m ρ c (Proc.devRef .tc main_arg5))
          (W1 m ρ c (Proc.devRef .tc main_arg6)) := by
  show StableHlo.after hostOps1_5 (StableHlo.after hostOps1_4 (StableHlo.after hostOps1_3 (StableHlo.after hostOps1_2 (StableHlo.after hostOps1_1 (StableHlo.after hostOps1 (W1 m ρ c)))))) _ = _
  after_results_simp
  simp only [TRef.ofBuf, TRef.toBuf, cast_eq]
  rfl

end Cert.KernelIdeal.Host

end
-- ==== Proof.KernelValue.lean ====
/-
  The kernel program's result as one function of its arguments.

  The second launch writes, block by block, the layer's row function `lnArr` of the five arrays it reads at its entry
  (`region1_value`).  Of those, the projected features are what the first launch wrote — `linArr` of the features,
  weights and bias (`region0_value`) — untouched by the host operations in between; the aggregate is `aggOf` of those
  features and the two integer inputs; scale, shift and node mask are the launch contents.
-/
import proofs.«141187_j70334384439537_1_alg».proof.Proof.Region0
import proofs.«141187_j70334384439537_1_alg».proof.Proof.Region1
import proofs.«141187_j70334384439537_1_alg».proof.Proof.Host

set_option maxRecDepth 16384

noncomputable section

namespace Cert.KernelIdeal.KernelValue

open Cert.KernelIdeal Cert.KernelIdeal.Gen Cert.Spec Idealize.ShloMosaic Idealize.ShloMosaic.TcCoe Idealize.SL.Sem
open Cert.ReferenceIdeal.RefValue (aggOf)

variable (m : (ℓ : Loc nD τ sig) → Buf (Elt Ideal) ℓ) (ρ : Dev nD → PrngReg)

/-- The projected features after the first launch: `linArr` of the launch contents of features, weights and bias. -/
theorem W1_h (c : Dev nD) :
    W1 m ρ c (Proc.devRef .tc main_v0)
      = linArr (m ((c : Thread nD τ).loc main_arg0)) (m ((c : Thread nD τ).loc main_arg1)) (m ((c : Thread nD τ).loc main_arg2)) :=
  (W1_arr m ρ c 3).trans (Region0.region0_value (V0 m ρ) c)

/-- Scale, shift and node mask reach the second launch as launched. -/
theorem V7_arg3 (c : Dev nD) : V7 m ρ c main_arg3 = m ((c : Thread nD τ).loc main_arg3) :=
  ((W8_arr m ρ c 2).trans (((dat1 (V7 m ρ) c).arrAt_in 2 rfl _).trans (A_eq1 (V7 m ρ) c 2))).symm.trans (W8_main_arg3 m ρ c)
theorem V7_arg4 (c : Dev nD) : V7 m ρ c main_arg4 = m ((c : Thread nD τ).loc main_arg4) :=
  ((W8_arr m ρ c 3).trans (((dat1 (V7 m ρ) c).arrAt_in 3 rfl _).trans (A_eq1 (V7 m ρ) c 3))).symm.trans (W8_main_arg4 m ρ c)
theorem V7_arg6 (c : Dev nD) : V7 m ρ c main_arg6 = m ((c : Thread nD τ).loc main_arg6) :=
  ((W8_arr m ρ c 4).trans (((dat1 (V7 m ρ) c).arrAt_in 4 rfl _).trans (A_eq1 (V7 m ρ) c 4))).symm.trans (W8_main_arg6 m ρ c)

/-- The projected features reach the second launch as the first launch left them. -/
theorem V7_h (c : Dev nD) :
    V7 m ρ c main_v0
      = linArr (m ((c : Thread nD τ).loc main_arg0)) (m ((c : Thread nD τ).loc main_arg1)) (m ((c : Thread nD τ).loc main_arg2)) :=
  (Host.W7_h m ρ c).trans (W1_h m ρ c)

/-- The aggregate the second launch reads: `aggOf` of the projected features, the edge list and the node mask. -/
theorem V7_agg (c : Dev nD) :
    V7 m ρ c main_v25
      = aggOf (F := Ideal) (linArr (m ((c : Thread nD τ).loc main_arg0)) (m ((c : Thread nD τ).loc main_arg1)) (m ((c : Thread nD τ).loc main_arg2)))
          (m ((c : Thread nD τ).loc main_arg5)) (m ((c : Thread nD τ).loc main_arg6)) := by
  refine (Host.W7_agg m ρ c).trans ?_
  rw [W1_h, Host.W1_arg5, Host.W1_arg6]

/-- The kernel program's result buffer at the end of the run. -/
theorem kernel_value (c : Dev nD) :
    W8 m ρ c (Proc.devRef .tc main_v26)
      = lnArr (linArr (m ((c : Thread nD τ).loc main_arg0)) (m ((c : Thread nD τ).loc main_arg1)) (m ((c : Thread nD τ).loc main_arg2)))
          (aggOf (F := Ideal) (linArr (m ((c : Thread nD τ).loc main_arg0)) (m ((c : Thread nD τ).loc main_arg1)) (m ((c : Thread nD τ).loc main_arg2)))
            (m ((c : Thread nD τ).loc main_arg5)) (m ((c : Thread nD τ).loc main_arg6)))
          (m ((c : Thread nD τ).loc main_arg3)) (m ((c : Thread nD τ).loc main_arg4)) (m ((c : Thread nD τ).loc main_arg6)) := by
  refine ((W8_arr m ρ c 5).trans (Region1.region1_value (V7 m ρ) c)).trans ?_
  rw [V7_h, V7_agg, V7_arg3, V7_arg4, V7_arg6]

end Cert.KernelIdeal.KernelValue

end
-- ==== Proof.lean ====
/-
  A graph-convolution layer in two launches against its plain reference, equal over the extended reals.

  Both programs project every node's feature row (`x · Wᵀ + b`), gather the projected rows along the edges, mask
  them, scatter-add them at their target nodes, mix `h + agg / √4096`, normalise each mixed row by its mean and
  variance, scale, shift, clip at zero and mask.  The kernel computes the projection in its first launch (eight
  256 × 256 matrix products per block, into zero accumulators) and everything after the scatter-add in its second; the
  gather / scatter-add road between them is the reference's own, operation for operation, so it is carried as one
  function `aggOf` of the projected features.  The one place the two spellings differ is the mixing weight — the
  kernel multiplies by the float word of `2⁻⁶`, the reference divides by `√4096 = 64` — and `x / 64 = x · 2⁻⁶` holds
  for every extended real, so no finiteness is used.

  The three frames: the two kernel programs' are the generated ones; the reference's is its run with the result
  dropped.  The idealisation's ledger is empty.
-/
import proofs.«141187_j70334384439537_1_alg».proof.Defs
import proofs.«141187_j70334384439537_1_alg».proof.Proof.Gen.Kernel.Frame
import proofs.«141187_j70334384439537_1_alg».proof.Proof.Gen.KernelIdeal.Frame
import proofs.«141187_j70334384439537_1_alg».proof.Proof.Gen.Pre_finite_inputs
import proofs.«141187_j70334384439537_1_alg».proof.Proof.RunValue
import proofs.«141187_j70334384439537_1_alg».proof.Proof.KernelValue
import proofs.«141187_j70334384439537_1_alg».proof.Proof.RefValue
import Idealize.ShloMosaic.Adequacy
import Idealize.ShloMosaic.Init

noncomputable section

namespace Cert.Proof

open Idealize.ShloMosaic Idealize.ShloMosaic.TcCoe Idealize.SL.Sem Cert.Spec

/-- Run from memories that agree on the seven arguments, both idealised programs end with the same result array:
    `lnArr` of the projection `linArr`, of `aggOf` of that projection, and of scale, shift and node mask. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KernelValue.kernel_value m ρ c), (h c).2⟩)
      (Cert.KernelIdeal.RunV.run_value (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5, e6⟩ := hagree c
  rw [Cert.ReferenceIdeal.ReadP.val_main_v60_eq, Cert.ReferenceIdeal.RefValue.ref_value, e0, e1, e2, e3, e4, e5, e6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
